-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S15x64 : Shape := ⟨2, ![15, 64]⟩
abbrev S2112x1024 : Shape := ⟨2, ![2112, 1024]⟩
abbrev S1024 : Shape := ⟨1, ![1024]⟩
abbrev S1024x3 : Shape := ⟨2, ![1024, 3]⟩
abbrev S3 : Shape := ⟨1, ![3]⟩
abbrev S7575 : Shape := ⟨1, ![7575]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S15x64 : S_.BroadcastsInDim S15x64 (![] : Fin 0 → Fin S15x64.rank)
  reducesTo_S15x64_S_d0_1 : S15x64.ReducesTo [0, 1] S_
  bcast_S_S2112x1024 : S_.BroadcastsInDim S2112x1024 (![] : Fin 0 → Fin S2112x1024.rank)
  reducesTo_S2112x1024_S_d0_1 : S2112x1024.ReducesTo [0, 1] S_
  bcast_S_S1024 : S_.BroadcastsInDim S1024 (![] : Fin 0 → Fin S1024.rank)
  reducesTo_S1024_S_d0 : S1024.ReducesTo [0] S_
  bcast_S_S1024x3 : S_.BroadcastsInDim S1024x3 (![] : Fin 0 → Fin S1024x3.rank)
  reducesTo_S1024x3_S_d0_1 : S1024x3.ReducesTo [0, 1] S_
  bcast_S_S3 : S_.BroadcastsInDim S3 (![] : Fin 0 → Fin S3.rank)
  reducesTo_S3_S_d0 : S3.ReducesTo [0] S_
  bcast_S_S7575 : S_.BroadcastsInDim S7575 (![] : Fin 0 → Fin S7575.rank)
  reducesTo_S7575_S_d0 : S7575.ReducesTo [0] S_

variable [Facts]

def fn_part3 {F : FTy → Type} [FloatOps F] (main_v42 : IVec S_ 1) (main_v50 : IVec S_ 1) : IVec S_ 1 :=
  let main_v51 : IVec S_ 1 := andi main_v42 main_v50
  main_v51

def fn_part2 {F : FTy → Type} [FloatOps F] (main_arg6 : IVec S7575 32) (main_arg7 : IVec S7575 32) (main_v28 : IVec S_ 1) (main_v33 : IVec S7575 1) : IVec S_ 1 :=
  let main_c_12 : IVec S_ 1 := constantI S_ 1 1#1
  let main_v34 : IVec S_ 1 := (fun x v => Host.reduce IntOp.andi x v reducesTo_S7575_S_d0 h_S_) main_v33 main_c_12
  let main_v35 : IVec S_ 1 := andi main_v28 main_v34
  let main_c_13 : IVec S_ 32 := constantI S_ 32 0#32
  let main_v36 : IVec S7575 32 := broadcastInDim S7575 ![] bcast_S_S7575 main_c_13
  let main_v37 : IVec S7575 1 := cmpi .sge main_arg7 main_v36
  let main_c_14 : IVec S_ 32 := constantI S_ 32 512#32
  let main_v38 : IVec S7575 32 := broadcastInDim S7575 ![] bcast_S_S7575 main_c_14
  let main_v39 : IVec S7575 1 := cmpi .slt main_arg7 main_v38
  let main_v40 : IVec S7575 1 := andi main_v37 main_v39
  let main_c_15 : IVec S_ 1 := constantI S_ 1 1#1
  let main_v41 : IVec S_ 1 := (fun x v => Host.reduce IntOp.andi x v reducesTo_S7575_S_d0 h_S_) main_v40 main_c_15
  let main_v42 : IVec S_ 1 := andi main_v35 main_v41
  let main_v43 : IVec S7575 32 := subi main_arg7 main_arg6
  let main_c_16 : IVec S_ 32 := constantI S_ 32 0#32
  let main_v44 : IVec S7575 32 := broadcastInDim S7575 ![] bcast_S_S7575 main_c_16
  let main_v45 : IVec S7575 1 := cmpi .sge main_v43 main_v44
  let main_v46 : IVec S7575 32 := subi main_arg7 main_arg6
  let main_c_17 : IVec S_ 32 := constantI S_ 32 15#32
  let main_v47 : IVec S7575 32 := broadcastInDim S7575 ![] bcast_S_S7575 main_c_17
  let main_v48 : IVec S7575 1 := cmpi .slt main_v46 main_v47
  let main_v49 : IVec S7575 1 := andi main_v45 main_v48
  let main_c_18 : IVec S_ 1 := constantI S_ 1 1#1
  let main_v50 : IVec S_ 1 := (fun x v => Host.reduce IntOp.andi x v reducesTo_S7575_S_d0 h_S_) main_v49 main_c_18
  fn_part3 (F := F) main_v42 main_v50

def fn_part1 {F : FTy → Type} [FloatOps F] (main_arg4 : FVec F S1024x3 .f32) (main_arg5 : FVec F S3 .f32) (main_arg6 : IVec S7575 32) (main_arg7 : IVec S7575 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x3 .f32 := Host.absf main_arg4
  let main_cst_6 : FVec F S_ .f32 := constant S_ .f32 0x7F800000#32
  let main_v20 : FVec F S1024x3 .f32 := broadcastInDim S1024x3 ![] bcast_S_S1024x3 main_cst_6
  let main_v21 : IVec S1024x3 1 := cmpf .olt main_v19 main_v20
  let main_c_7 : IVec S_ 1 := constantI S_ 1 1#1
  let main_v22 : IVec S_ 1 := (fun x v => Host.reduce IntOp.andi x v reducesTo_S1024x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_c_10 : IVec S_ 32 := constantI S_ 32 0#32
  let main_v29 : IVec S7575 32 := broadcastInDim S7575 ![] bcast_S_S7575 main_c_10
  let main_v30 : IVec S7575 1 := cmpi .sge main_arg6 main_v29
  let main_c_11 : IVec S_ 32 := constantI S_ 32 512#32
  let main_v31 : IVec S7575 32 := broadcastInDim S7575 ![] bcast_S_S7575 main_c_11
  let main_v32 : IVec S7575 1 := cmpi .slt main_arg6 main_v31
  let main_v33 : IVec S7575 1 := andi main_v30 main_v32
  fn_part2 (F := F) main_arg6 main_arg7 main_v28 main_v33

def fn {F : FTy → Type} [FloatOps F] (main_arg0 : FVec F S8x512x1024 .f32) (main_arg1 : FVec F S15x64 .f32) (main_arg2 : FVec F S2112x1024 .f32) (main_arg3 : FVec F S1024 .f32) (main_arg4 : FVec F S1024x3 .f32) (main_arg5 : FVec F S3 .f32) (main_arg6 : IVec S7575 32) (main_arg7 : IVec S7575 32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S15x64 .f32 := Host.absf main_arg1
  let main_cst_0 : FVec F S_ .f32 := constant S_ .f32 0x7F800000#32
  let main_v5 : FVec F S15x64 .f32 := broadcastInDim S15x64 ![] bcast_S_S15x64 main_cst_0
  let main_v6 : IVec S15x64 1 := cmpf .olt main_v4 main_v5
  let main_c_1 : IVec S_ 1 := constantI S_ 1 1#1
  let main_v7 : IVec S_ 1 := (fun x v => Host.reduce IntOp.andi x v reducesTo_S15x64_S_d0_1 h_S_) main_v6 main_c_1
  let main_v8 : IVec S_ 1 := andi main_v3 main_v7
  let main_v9 : FVec F S2112x1024 .f32 := Host.absf main_arg2
  let main_cst_2 : FVec F S_ .f32 := constant S_ .f32 0x7F800000#32
  let main_v10 : FVec F S2112x1024 .f32 := broadcastInDim S2112x1024 ![] bcast_S_S2112x1024 main_cst_2
  let main_v11 : IVec S2112x1024 1 := cmpf .olt main_v9 main_v10
  let main_c_3 : IVec S_ 1 := constantI S_ 1 1#1
  let main_v12 : IVec S_ 1 := (fun x v => Host.reduce IntOp.andi x v reducesTo_S2112x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x512x1024 : Shape := ⟨3, ![8, 512, 1024]⟩
abbrev S15x64 : Shape := ⟨2, ![15, 64]⟩
abbrev S2112x1024 : Shape := ⟨2, ![2112, 1024]⟩
abbrev S1024 : Shape := ⟨1, ![1024]⟩
abbrev S1024x3 : Shape := ⟨2, ![1024, 3]⟩
abbrev S3 : Shape := ⟨1, ![3]⟩
abbrev S7575 : Shape := ⟨1, ![7575]⟩
abbrev S1024x1024 : Shape := ⟨2, ![1024, 1024]⟩
abbrev S64x1024 : Shape := ⟨2, ![64, 1024]⟩
abbrev S1x512x1024 : Shape := ⟨3, ![1, 512, 1024]⟩
abbrev S512x1024 : Shape := ⟨2, ![512, 1024]⟩
abbrev S15x1024 : Shape := ⟨2, ![15, 1024]⟩
abbrev S_ : Shape := ⟨0, ![]⟩
abbrev S7680 : Shape := ⟨1, ![7680]⟩
abbrev S8x7680x3 : Shape := ⟨3, ![8, 7680, 3]⟩
abbrev S512 : Shape := ⟨1, ![512]⟩
abbrev S1x512x3 : Shape := ⟨3, ![1, 512, 3]⟩
abbrev S512x512 : Shape := ⟨2, ![512, 512]⟩
abbrev S512x1 : Shape := ⟨2, ![512, 1]⟩
abbrev S512x15 : Shape := ⟨2, ![512, 15]⟩
abbrev S1x1024 : Shape := ⟨2, ![1, 1024]⟩
abbrev S512x3 : Shape := ⟨2, ![512, 3]⟩
abbrev S1x3 : Shape := ⟨2, ![1, 3]⟩
abbrev S8x7575x3 : Shape := ⟨3, ![8, 7575, 3]⟩

abbrev nBuf : Space → Nat
  | .hbm => 27
  | .vmem => 22
  | .smem => 0
  | _ => 0

abbrev bufTy : (tb : Table) → Fin (tcTables nBuf tb) → BufTy
  | .hbm, ⟨0, _⟩ => ⟨S8x512x1024, .f32⟩
  | .hbm, ⟨1, _⟩ => ⟨S15x64, .f32⟩
  | .hbm, ⟨2, _⟩ => ⟨S2112x1024, .f32⟩
  | .hbm, ⟨3, _⟩ => ⟨S1024, .f32⟩
  | .hbm, ⟨4, _⟩ => ⟨S1024x3, .f32⟩
  | .hbm, ⟨5, _⟩ => ⟨S3, .f32⟩
  | .hbm, ⟨6, _⟩ => ⟨S7575, .i32⟩
  | .hbm, ⟨7, _⟩ => ⟨S7575, .i32⟩
  | .hbm, ⟨8, _⟩ => ⟨S1024x1024, .f32⟩
  | .hbm, ⟨9, _⟩ => ⟨S1024x1024, .f32⟩
  | .hbm, ⟨10, _⟩ => ⟨S64x1024, .f32⟩
  | .hbm, ⟨11, _⟩ => ⟨S8x512x1024, .bf16⟩
  | .hbm, ⟨12, _⟩ => ⟨S1024x1024, .bf16⟩
  | .hbm, ⟨13, _⟩ => ⟨S1024x1024, .bf16⟩
  | .hbm, ⟨14, _⟩ => ⟨S8x512x1024, .bf16⟩
  | .hbm, ⟨15, _⟩ => ⟨S8x512x1024, .bf16⟩
  | .hbm, ⟨16, _⟩ => ⟨S15x1024, .f32⟩
  | .hbm, ⟨17, _⟩ => ⟨S15x1024, .bf16⟩
  | .hbm, ⟨18, _⟩ => ⟨S1024x3, .bf16⟩
  | .hbm, ⟨19, _⟩ => ⟨S_, .i32⟩
  | .hbm, ⟨20, _⟩ => ⟨S_, .i32⟩
  | .hbm, ⟨21, _⟩ => ⟨S7680, .i32⟩
  | .hbm, ⟨22, _⟩ => ⟨S_, .i32⟩
  | .hbm, ⟨23, _⟩ => ⟨S_, .i32⟩
  | .hbm, ⟨24, _⟩ => ⟨S7680, .i32⟩
  | .hbm, ⟨25, _⟩ => ⟨S8x7680x3, .f32⟩
  | .hbm, ⟨26, _⟩ => ⟨S8x7575x3, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512, .i32⟩
  | .local _ .vmem, ⟨9, _⟩ => ⟨S512, .i32⟩
  | .local _ .vmem, ⟨10, _⟩ => ⟨S512, .i32⟩
  | .local _ .vmem, ⟨11, _⟩ => ⟨S512, .i32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S15x1024, .bf16⟩
  | .local _ .vmem, ⟨17, _⟩ => ⟨S1024x3, .bf16⟩
  | .local _ .vmem, ⟨18, _⟩ => ⟨S1024, .f32⟩
  | .local _ .vmem, ⟨19, _⟩ => ⟨S3, .f32⟩
  | .local _ .vmem, ⟨20, _⟩ => ⟨S1x512x3, .f32⟩
  | .local _ .vmem, ⟨21, _⟩ => ⟨S1x512x3, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 15], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S15x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x3 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x512x3 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  slices_S2112x1024_S1024x1024_0_0 : S2112x1024.Slices ![0, 0] S1024x1024
  slices_S2112x1024_S1024x1024_1024_0 : S2112x1024.Slices ![1024, 0] S1024x1024
  slices_S2112x1024_S64x1024_2048_0 : S2112x1024.Slices ![2048, 0] S64x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  pads_S7575_S7680_01050 : S7575.Pads (![0] : Fin 1 → Nat) ![105] ![0] S7680
  h_S_ : 0 < S_.numel
  inb_S512_S512_0 : ∀ a, (![0] : Fin 1 → Nat) a + S512.size a ≤ S512.size a
  h_S512 : 0 < S512.numel
  shapeCasts_S512_S512 : S512.ShapeCasts S512
  iota_S512x512_d1_w32 : S512x512.Iotas .tc 32 [1]
  shapeCasts_S512_S512x1 : S512.ShapeCasts S512x1
  broadcasts_S512x1_S512x512 : S512x1.Broadcasts S512x512
  natLt_1_32 : 1 < 32
  inb_S15x1024_S15x1024_0_0 : ∀ a, (![0, 0] : Fin 2 → Nat) a + S15x1024.size a ≤ S15x1024.size a
  h_S15x1024 : 0 < S15x1024.numel
  shapeCasts_S15x1024_S15x1024 : S15x1024.ShapeCasts S15x1024
  iota_S512x15_d1_w32 : S512x15.Iotas .tc 32 [1]
  broadcasts_S512x1_S512x15 : S512x1.Broadcasts S512x15
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S3_S3_0 : ∀ a, (![0] : Fin 1 → Nat) a + S3.size a ≤ S3.size a
  h_S3 : 0 < S3.numel
  shapeCasts_S3_S1x3 : S3.ShapeCasts S1x3
  broadcasts_S1x3_S512x3 : S1x3.Broadcasts S512x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  shapeCasts_S512x3_S1x512x3 : S512x3.ShapeCasts S1x512x3
  slices_S8x7680x3_S8x7575x3_0_0_0 : S8x7680x3.Slices ![0, 0, 0] S8x7575x3
  dot_S512x1024_S1024x1024_S512x1024_1_0_0_1_n_n_wf : DotDims.WF S512x1024 S1024x1024 S512x1024 [1] [0] [0] [1] [] []
  dot_S15x64_S64x1024_S15x1024_1_0_0_1_n_n_wf : DotDims.WF S15x64 S64x1024 S15x1024 [1] [0] [0] [1] [] []
  dot_S512x512_S512x1024_S512x1024_1_0_0_1_n_n_wf : DotDims.WF S512x512 S512x1024 S512x1024 [1] [0] [0] [1] [] []
  dot_S512x15_S15x1024_S512x1024_1_0_0_1_n_n_wf : DotDims.WF S512x15 S15x1024 S512x1024 [1] [0] [0] [1] [] []
  dot_S512x1024_S1024x3_S512x3_1_0_0_1_n_n_wf : DotDims.WF S512x1024 S1024x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x512x1024.size a
  hwx0_0 : ∀ i : grid0.Coords, EltTy.bits .bf16 = 32 ∨ (Rect.block (s := S8x512x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x512x1024.size a
  hwx0_3 : ∀ i : grid0.Coords, EltTy.bits .bf16 = 32 ∨ (Rect.block (s := S8x512x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x512x1024.size a
  hwx0_4 : ∀ i : grid0.Coords, EltTy.bits .bf16 = 32 ∨ (Rect.block (s := S8x512x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S7680.size a
  hwx1_0 : ∀ i : grid1.Coords, EltTy.bits .i32 = 32 ∨ (Rect.block (s := S7680) S512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S7680.size a
  hwx1_1 : ∀ i : grid1.Coords, EltTy.bits .i32 = 32 ∨ (Rect.block (s := S7680) S512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x512x1024.size a
  hwx1_2 : ∀ i : grid1.Coords, EltTy.bits .bf16 = 32 ∨ (Rect.block (s := S8x512x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x512x1024.size a
  hwx1_3 : ∀ i : grid1.Coords, EltTy.bits .bf16 = 32 ∨ (Rect.block (s := S8x512x1024) S1x512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S15x1024.size a ≤ S15x1024.size a
  hwx1_4 : ∀ i : grid1.Coords, EltTy.bits .bf16 = 32 ∨ (Rect.block (s := S15x1024) S15x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x3.size a ≤ S1024x3.size a
  hwx1_5 : ∀ i : grid1.Coords, EltTy.bits .bf16 = 32 ∨ (Rect.block (s := S1024x3) S1024x3.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3.size a ≤ S3.size a
  hwx1_7 : ∀ i : grid1.Coords, EltTy.bits .f32 = 32 ∨ (Rect.block (s := S3) S3.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x3.size a ≤ S8x7680x3.size a
  hwx1_8 : ∀ i : grid1.Coords, EltTy.bits .f32 = 32 ∨ (Rect.block (s := S8x7680x3) S1x512x3.size (cc1_transform_8 i) (hinb1_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S15x64_S64x1024_S15x1024_1_0_0_1_n_n : DotDims S15x64 S64x1024 S15x1024 where
  lhsContracting := [1]
  rhsContracting := [0]
  lhsNonContracting := [0]
  rhsNonContracting := [1]
  lhsBatch := []
  rhsBatch := []
  wf := dot_S15x64_S64x1024_S15x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x15_S15x1024_S512x1024_1_0_0_1_n_n : DotDims S512x15 S15x1024 S512x1024 where
  lhsContracting := [1]
  rhsContracting := [0]
  lhsNonContracting := [0]
  rhsNonContracting := [1]
  lhsBatch := []
  rhsBatch := []
  wf := dot_S512x15_S15x1024_S512x1024_1_0_0_1_n_n_wf
def dot_S512x1024_S1024x3_S512x3_1_0_0_1_n_n : DotDims S512x1024 S1024x3 S512x3 where
  lhsContracting := [1]
  rhsContracting := [0]
  lhsNonContracting := [0]
  rhsNonContracting := [1]
  lhsBatch := []
  rhsBatch := []
  wf := dot_S512x1024_S1024x3_S512x3_1_0_0_1_n_n_wf

abbrev win0_0 : Pipeline.Window sig grid0 :=
  Pipeline.Window.ofSpec (Memref.whole main_v3) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S15x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S1x512x3.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x512x1024 : Shape := ⟨3, ![8, 512, 1024]⟩
abbrev S15x64 : Shape := ⟨2, ![15, 64]⟩
abbrev S2112x1024 : Shape := ⟨2, ![2112, 1024]⟩
abbrev S1024 : Shape := ⟨1, ![1024]⟩
abbrev S1024x3 : Shape := ⟨2, ![1024, 3]⟩
abbrev S3 : Shape := ⟨1, ![3]⟩
abbrev S7575 : Shape := ⟨1, ![7575]⟩
abbrev S_ : Shape := ⟨0, ![]⟩
abbrev S7575x1 : Shape := ⟨2, ![7575, 1]⟩
abbrev S8x7575x1024 : Shape := ⟨3, ![8, 7575, 1024]⟩
abbrev S7575x64 : Shape := ⟨2, ![7575, 64]⟩
abbrev S1x7575x64 : Shape := ⟨3, ![1, 7575, 64]⟩
abbrev S8x7575x64 : Shape := ⟨3, ![8, 7575, 64]⟩
abbrev S8x7575x2112 : Shape := ⟨3, ![8, 7575, 2112]⟩
abbrev S1x1x1024 : Shape := ⟨3, ![1, 1, 1024]⟩
abbrev S8x7575x3 : Shape := ⟨3, ![8, 7575, 3]⟩
abbrev S1x1x3 : Shape := ⟨3, ![1, 1, 3]⟩

abbrev nBuf : Space → Nat
  | .hbm => 50
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S15x64, .f32⟩
  | .hbm, ⟨2, _⟩ => ⟨S2112x1024, .f32⟩
  | .hbm, ⟨3, _⟩ => ⟨S1024, .f32⟩
  | .hbm, ⟨4, _⟩ => ⟨S1024x3, .f32⟩
  | .hbm, ⟨5, _⟩ => ⟨S3, .f32⟩
  | .hbm, ⟨6, _⟩ => ⟨S7575, .i32⟩
  | .hbm, ⟨7, _⟩ => ⟨S7575, .i32⟩
  | .hbm, ⟨8, _⟩ => ⟨S_, .i32⟩
  | .hbm, ⟨9, _⟩ => ⟨S7575, .i32⟩
  | .hbm, ⟨10, _⟩ => ⟨S7575, .i1⟩
  | .hbm, ⟨11, _⟩ => ⟨S_, .i32⟩
  | .hbm, ⟨12, _⟩ => ⟨S7575, .i32⟩
  | .hbm, ⟨13, _⟩ => ⟨S7575, .i32⟩
  | .hbm, ⟨14, _⟩ => ⟨S7575, .i32⟩
  | .hbm, ⟨15, _⟩ => ⟨S7575x1, .i32⟩
  | .hbm, ⟨16, _⟩ => ⟨S8x7575x1024, .f32⟩
  | .hbm, ⟨17, _⟩ => ⟨S_, .i32⟩
  | .hbm, ⟨18, _⟩ => ⟨S7575, .i32⟩
  | .hbm, ⟨19, _⟩ => ⟨S7575, .i1⟩
  | .hbm, ⟨20, _⟩ => ⟨S_, .i32⟩
  | .hbm, ⟨21, _⟩ => ⟨S7575, .i32⟩
  | .hbm, ⟨22, _⟩ => ⟨S7575, .i32⟩
  | .hbm, ⟨23, _⟩ => ⟨S7575, .i32⟩
  | .hbm, ⟨24, _⟩ => ⟨S7575x1, .i32⟩
  | .hbm, ⟨25, _⟩ => ⟨S8x7575x1024, .f32⟩
  | .hbm, ⟨26, _⟩ => ⟨S7575, .i32⟩
  | .hbm, ⟨27, _⟩ => ⟨S_, .i32⟩
  | .hbm, ⟨28, _⟩ => ⟨S7575, .i32⟩
  | .hbm, ⟨29, _⟩ => ⟨S7575, .i1⟩
  | .hbm, ⟨30, _⟩ => ⟨S_, .i32⟩
  | .hbm, ⟨31, _⟩ => ⟨S7575, .i32⟩
  | .hbm, ⟨32, _⟩ => ⟨S7575, .i32⟩
  | .hbm, ⟨33, _⟩ => ⟨S7575, .i32⟩
  | .hbm, ⟨34, _⟩ => ⟨S7575x1, .i32⟩
  | .hbm, ⟨35, _⟩ => ⟨S7575x64, .f32⟩
  | .hbm, ⟨36, _⟩ => ⟨S1x7575x64, .f32⟩
  | .hbm, ⟨37, _⟩ => ⟨S8x7575x64, .f32⟩
  | .hbm, ⟨38, _⟩ => ⟨S8x7575x2112, .f32⟩
  | .hbm, ⟨39, _⟩ => ⟨S8x7575x1024, .f32⟩
  | .hbm, ⟨40, _⟩ => ⟨S1x1x1024, .f32⟩
  | .hbm, ⟨41, _⟩ => ⟨S8x7575x1024, .f32⟩
  | .hbm, ⟨42, _⟩ => ⟨S8x7575x1024, .f32⟩
  | .hbm, ⟨43, _⟩ => ⟨S_, .f32⟩
  | .hbm, ⟨44, _⟩ => ⟨S8x7575x1024, .f32⟩
  | .hbm, ⟨45, _⟩ => ⟨S8x7575x1024, .f32⟩
  | .hbm, ⟨46, _⟩ => ⟨S8x7575x3, .f32⟩
  | .hbm, ⟨47, _⟩ => ⟨S1x1x3, .f32⟩
  | .hbm, ⟨48, _⟩ => ⟨S8x7575x3, .f32⟩
  | .hbm, ⟨49, _⟩ => ⟨S8x7575x3, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S7575 : S_.BroadcastsInDim S7575 (![] : Fin 0 → Fin S7575.rank)
  bcast_S7575_S7575x1_0 : S7575.BroadcastsInDim S7575x1 (![0] : Fin 1 → Fin S7575x1.rank)
  bcast_S7575x64_S1x7575x64_1_2 : S7575x64.BroadcastsInDim S1x7575x64 (![1, 2] : Fin 2 → Fin S1x7575x64.rank)
  bcast_S1x7575x64_S8x7575x64_0_1_2 : S1x7575x64.BroadcastsInDim S8x7575x64 (![0, 1, 2] : Fin 3 → Fin S8x7575x64.rank)
  concatenates_S8x7575x1024_S8x7575x1024_S8x7575x64_S8x7575x2112_d2 : Shape.Concatenates [S8x7575x1024, S8x7575x1024, S8x7575x64] S8x7575x2112 2
  bcast_S1024_S1x1x1024_2 : S1024.BroadcastsInDim S1x1x1024 (![2] : Fin 1 → Fin S1x1x1024.rank)
  bcast_S1x1x1024_S8x7575x1024_0_1_2 : S1x1x1024.BroadcastsInDim S8x7575x1024 (![0, 1, 2] : Fin 3 → Fin S8x7575x1024.rank)
  bcast_S_S8x7575x1024 : S_.BroadcastsInDim S8x7575x1024 (![] : Fin 0 → Fin S8x7575x1024.rank)
  bcast_S3_S1x1x3_2 : S3.BroadcastsInDim S1x1x3 (![2] : Fin 1 → Fin S1x1x3.rank)
  bcast_S1x1x3_S8x7575x3_0_1_2 : S1x1x3.BroadcastsInDim S8x7575x3 (![0, 1, 2] : Fin 3 → Fin S8x7575x3.rank)
  gather_S8x512x1024_S7575x1_S8x7575x1024_02_1_n_n_1_1_811024_wf : GatherDims.WF S8x512x1024 S7575x1 S8x7575x1024 [0, 2] [1] [] [1] [] 1 ![8, 1, 1024]
  gather_S15x64_S7575x1_S7575x64_1_0_n_n_0_1_164_wf : GatherDims.WF S15x64 S7575x1 S7575x64 [1] [0] [] [0] [] 1 ![1, 64]
  dot_S8x7575x2112_S2112x1024_S8x7575x1024_2_0_01_1_n_n_wf : DotDims.WF S8x7575x2112 S2112x1024 S8x7575x1024 [2] [0] [0, 1] [1] [] []
  dot_S8x7575x1024_S1024x3_S8x7575x3_2_0_01_1_n_n_wf : DotDims.WF S8x7575x1024 S1024x3 S8x7575x3 [2] [0] [0, 1] [1] [] []

variable [Facts₀]

def gather_S8x512x1024_S7575x1_S8x7575x1024_02_1_n_n_1_1_811024 : GatherDims S8x512x1024 S7575x1 S8x7575x1024 where
  offsetDims := [0, 2]
  collapsedSliceDims := [1]
  operandBatchingDims := []
  startIndicesBatchingDims := []
  startIndexMap := [1]
  indexVectorDim := 1
  sliceSizes := ![8, 1, 1024]
  wf := gather_S8x512x1024_S7575x1_S8x7575x1024_02_1_n_n_1_1_811024_wf
def gather_S15x64_S7575x1_S7575x64_1_0_n_n_0_1_164 : GatherDims S15x64 S7575x1 S7575x64 where
  offsetDims := [1]
  collapsedSliceDims := [0]
  operandBatchingDims := []
  startIndicesBatchingDims := []
  startIndexMap := [0]
  indexVectorDim := 1
  sliceSizes := ![1, 64]
  wf := gather_S15x64_S7575x1_S7575x64_1_0_n_n_0_1_164_wf
def dot_S8x7575x2112_S2112x1024_S8x7575x1024_2_0_01_1_n_n : DotDims S8x7575x2112 S2112x1024 S8x7575x1024 where
  lhsContracting := [2]
  rhsContracting := [0]
  lhsNonContracting := [0, 1]
  rhsNonContracting := [1]
  lhsBatch := []
  rhsBatch := []
  wf := dot_S8x7575x2112_S2112x1024_S8x7575x1024_2_0_01_1_n_n_wf
def dot_S8x7575x1024_S1024x3_S8x7575x3_2_0_01_1_n_n : DotDims S8x7575x1024 S1024x3 S8x7575x3 where
  lhsContracting := [2]
  rhsContracting := [0]
  lhsNonContracting := [0, 1]
  rhsNonContracting := [1]
  lhsBatch := []
  rhsBatch := []
  wf := dot_S8x7575x1024_S1024x3_S8x7575x3_2_0_01_1_n_n_wf

class Facts : Prop extends Facts₀ where

variable [Facts]
-- ==== Proof.Spec.lean ====
/- The span scorer as functions of its arrays, entry by entry, on the extended reals.

   A span j of a batch row b has a start position, an end position and a width. Its hidden row is the positive part of
     (start row of the sequence) · W1[0:1024] + (end row) · W1[1024:2048] + (width row of the table) · W1[2048:2112] + b1,
   and its three scores are that row times W2 plus b2.

   Two spellings of this value are stated here. The first gathers rows AFTER projecting: the sequence is multiplied by
   the two square blocks of W1 once, the width table by the last block, and a span picks its rows out of the projected
   tables by a sum against an indicator row (one where the position matches, zero elsewhere). The second gathers
   BEFORE: the three picked rows are laid side by side into one row of 2112 entries, which is multiplied by W1 whole. -/
import Idealize.ShloMosaic.PureOps.Ideal
import Idealize.ShloMosaic.Lib.ValueIdx

noncomputable section

open scoped BigOperators

namespace Cert.SpanScore

open Idealize.ShloMosaic Idealize.ShloMosaic.ValueIdx

/-- [batch, position, feature] -/
abbrev SSeq : Shape := ⟨3, ![8, 512, 1024]⟩
/-- a square block of the first weight matrix -/
abbrev SSq : Shape := ⟨2, ![1024, 1024]⟩
/-- the first weight matrix whole -/
abbrev SW1 : Shape := ⟨2, ![2112, 1024]⟩
/-- the width table -/
abbrev SWe : Shape := ⟨2, ![15, 64]⟩
/-- the last block of the first weight matrix -/
abbrev SWc : Shape := ⟨2, ![64, 1024]⟩
/-- the projected width table -/
abbrev SWp : Shape := ⟨2, ![15, 1024]⟩
/-- the second weight matrix -/
abbrev SW2 : Shape := ⟨2, ![1024, 3]⟩
abbrev SH : Shape := ⟨1, ![1024]⟩
abbrev SL : Shape := ⟨1, ![3]⟩
/-- the spans, and the spans padded to whole tiles of 512 -/
abbrev SSp : Shape := ⟨1, ![7575]⟩
abbrev SSpP : Shape := ⟨1, ![7680]⟩
abbrev SOut : Shape := ⟨3, ![8, 7575, 3]⟩
abbrev SOutP : Shape := ⟨3, ![8, 7680, 3]⟩

/-! ## Projecting first -/

/-- Every position's row times a square matrix: entry (b, p, c) is the sum over d of X[b, p, d] · B[d, c]. -/
def proj (X : SSeq.Idx → EReal) (B : SSq.Idx → EReal) : SSeq.Idx → EReal :=
  fun i => ∑ d : Fin 1024, X (ix3 (i 0) (i 1) d) * B (ix2 d (i 2))

/-- The width table times the last block: entry (w, c) is the sum over d of E[w, d] · B[d, c]. -/
def projW (E : SWe.Idx → EReal) (B : SWc.Idx → EReal) : SWp.Idx → EReal :=
  fun i => ∑ d : Fin 64, E (ix2 (i 0) d) * B (ix2 d (i 1))

/-- A word kept between 0 and hi, read signed: the larger of 0 and the word, then the smaller of hi and that. -/
def clip (hi w : BitVec 32) : BitVec 32 := IntOp.minsi hi (IntOp.maxsi 0#32 w)

/-- The indicator of "the word is the position k": one or zero, as an extended real. -/
def hot (w : BitVec 32) (k : Nat) : EReal := (((IntOp.cmpi .eq w (BitVec.ofNat 32 k)).setWidth 32).toInt : ℝ)

/-- A span's hidden entry c, rows picked out of the projected tables by indicator sums. -/
def hiddenK (S E : SSpP.Idx → BitVec 32) (Ps Pe : SSeq.Idx → EReal) (Wp : SWp.Idx → EReal) (b1 : SH.Idx → EReal)
    (b : Fin 8) (j : Fin 7680) (c : Fin 1024) : EReal :=
  max ((((∑ k : Fin 512, hot (clip 511#32 (S (ix1 j))) k.val * Ps (ix3 b k c))
          + (∑ k : Fin 512, hot (clip 511#32 (E (ix1 j))) k.val * Pe (ix3 b k c)))
        + (∑ k : Fin 15, hot (clip 14#32 (IntOp.subi (E (ix1 j)) (S (ix1 j)))) k.val * Wp (ix2 k c)))
      + b1 (ix1 c)) 0

/-- The padded score array: hidden row times the second matrix, plus its bias. -/
def logitK (S E : SSpP.Idx → BitVec 32) (Ps Pe : SSeq.Idx → EReal) (Wp : SWp.Idx → EReal) (C : SW2.Idx → EReal)
    (b1 : SH.Idx → EReal) (b2 : SL.Idx → EReal) : SOutP.Idx → EReal :=
  fun i => (∑ c : Fin 1024, hiddenK S E Ps Pe Wp b1 (i 0) (i 1) c * C (ix2 c (i 2))) + b2 (ix1 (i 2))

/-! ## Gathering first -/

/-- A word as a row of a table of n rows the way array indexing reads it: a negative word counts from the end
    (n is added), and the result is kept inside [0, n - 1]. -/
def rowOf (n : Nat) (w : BitVec 32) : Nat :=
  min (Scalar.select (IntOp.cmpi .slt w 0#32) (IntOp.addi w (BitVec.ofNat 32 n)) w).toInt.toNat (n - 1)

theorem rowOf_lt (n : Nat) (hn : 0 < n) (w : BitVec 32) : rowOf n w < n := by
  unfold rowOf; omega

/-- The three picked rows side by side: entries 0–1023 the start row, 1024–2047 the end row, 2048–2111 the width row. -/
def catRow (X : SSeq.Idx → EReal) (We : SWe.Idx → EReal) (S E : SSp.Idx → BitVec 32)
    (b : Fin 8) (j : Fin 7575) (d : Fin 2112) : EReal :=
  if h0 : d.val < 1024 then X (ix3 b ⟨rowOf 512 (S (ix1 j)), rowOf_lt 512 (by decide) _⟩ ⟨d.val, h0⟩)
  else if h1 : d.val < 2048 then X (ix3 b ⟨rowOf 512 (E (ix1 j)), rowOf_lt 512 (by decide) _⟩ ⟨d.val - 1024, by omega⟩)
  else We (ix2 ⟨rowOf 15 (IntOp.subi (E (ix1 j)) (S (ix1 j))), rowOf_lt 15 (by decide) _⟩ ⟨d.val - 2048, by have := d.isLt; omega⟩)

def hiddenR (X : SSeq.Idx → EReal) (We : SWe.Idx → EReal) (A : SW1.Idx → EReal) (b1 : SH.Idx → EReal)
    (S E : SSp.Idx → BitVec 32) (b : Fin 8) (j : Fin 7575) (c : Fin 1024) : EReal :=
  max ((∑ d : Fin 2112, catRow X We S E b j d * A (ix2 d c)) + b1 (ix1 c)) 0

/-- The score array of the spans. -/
def logitR (X : SSeq.Idx → EReal) (We : SWe.Idx → EReal) (A : SW1.Idx → EReal) (b1 : SH.Idx → EReal)
    (C : SW2.Idx → EReal) (b2 : SL.Idx → EReal) (S E : SSp.Idx → BitVec 32) : SOut.Idx → EReal :=
  fun i => (∑ c : Fin 1024, hiddenR X We A b1 S E (i 0) (i 1) c * C (ix2 c (i 2))) + b2 (ix1 (i 2))

/-! ## The blocks of the first weight matrix -/

def blockA (A : SW1.Idx → EReal) (off : Nat) (h : off + 1024 ≤ 2112) : SSq.Idx → EReal :=
  fun i => A (ix2 ⟨off + (i 0).val, by have hi : (i 0).val < 1024 := (i 0).isLt; omega⟩ (i 1))

def blockC (A : SW1.Idx → EReal) : SWc.Idx → EReal :=
  fun i => A (ix2 ⟨2048 + (i 0).val, by have hi : (i 0).val < 64 := (i 0).isLt; omega⟩ (i 1))

/-- What the precondition says of one span: both positions inside the sequence, the width inside the width table,
    each read signed. -/
def InRange (S E : SSp.Idx → BitVec 32) : Prop :=
  ∀ j : Fin 7575, (0 ≤ (S (ix1 j)).toInt ∧ (S (ix1 j)).toInt < 512) ∧ (0 ≤ (E (ix1 j)).toInt ∧ (E (ix1 j)).toInt < 512)
    ∧ (0 ≤ (IntOp.subi (E (ix1 j)) (S (ix1 j))).toInt ∧ (IntOp.subi (E (ix1 j)) (S (ix1 j))).toInt < 15)

end Cert.SpanScore

end
-- ==== Proof.Region0.lean ====
/- The first kernel: for each batch row, the 512 position rows times each of the two square blocks. Its two output
   arrays, after every batch row's block has been written back, are the two projected tables. -/
import proofs.«429336_j21028159881265_3_alg».proof.Proof.Gen.KernelIdeal.Frame
import proofs.«429336_j21028159881265_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.SpanScore
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One product of a block of rows with a square matrix, entry by entry -/

/-- The left operand of the product is read on its row axis at the result's row. -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- and on its column axis at the summed index. -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand is read on its row axis at the summed index -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- and on its column axis at the result's column. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows times a square matrix into a zero accumulator: entry (p, c) is the sum over d of Y[p, d] · B[d, c]. -/
theorem rows_times_square (y0 : FVec Ideal S512x1024 .bf16) (y1 : FVec Ideal S1024x1024 .bf16) (p : Fin 512) (c : Fin 1024) :
    matmul dot_S512x1024_S1024x1024_S512x1024_1_0_0_1_n_n none y0 y1 (constant (F := Ideal) S512x1024 .f32 0x00000000#32) (ix2 p c)
      = ∑ d : Fin 1024, y0 (ix2 p d) * y1 (ix2 d c) := by
  refine (Ideal.matmul_constant_zero_apply dot_S512x1024_S1024x1024_S512x1024_1_0_0_1_n_n none y0 y1 (ix2 p c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 p c) ((contrEquiv1 dot_S512x1024_S1024x1024_S512x1024_1_0_0_1_n_n 1024 rfl rfl).symm k) = ix2 k c := funext fun a => Fin.ext (by
    match a with
    | ⟨0, _⟩ => exact (rhs_row _ _).trans hk
    | ⟨1, _⟩ => exact rhs_col _ _)
  rw [el, er]

/-- A block of one batch row, seen without its batch axis, holds at (p, d) what the block holds at (0, p, d). -/
theorem rows_of_block (v : S1x512x1024.Idx → EReal) (h : S1x512x1024.ShapeCasts S512x1024) (p : Fin 512) (d : Fin 1024) :
    shapeCast S512x1024 v h (ix2 p d) = v (ix3 (0 : Fin 1) p d) := by
  refine (shapeCast_dropUnit_apply ![512, 1024] v h (ix2 p d)).trans (congrArg v ?_)
  funext a
  match a with
  | ⟨0, _⟩ => rfl
  | ⟨1, _⟩ => rfl
  | ⟨2, _⟩ => rfl

/-- Rows given a batch axis of one hold at (0, p, c) what the rows hold at (p, c). -/
theorem block_of_rows (v : S512x1024.Idx → EReal) (h : S512x1024.ShapeCasts S1x512x1024) (p : Fin 512) (c : Fin 1024) :
    shapeCast S1x512x1024 v h (ix3 (0 : Fin 1) p c) = v (ix2 p c) := by
  refine (shapeCast_addUnit_apply ![512, 1024] v h (ix3 (0 : Fin 1) p c)).trans (congrArg v ?_)
  funext a
  match a with
  | ⟨0, _⟩ => rfl
  | ⟨1, _⟩ => rfl

/-- What the body stores for the first table: entry (0, p, c) of the block is the sum over d of the sequence block's
    entry (0, p, d) times the matrix's entry (d, c). -/
theorem stored_start (x0 : Vec Ideal S1x512x1024 .bf16) (x1 : Vec Ideal S1024x1024 .bf16) (p : Fin 512) (c : Fin 1024) :
    k0_pay2 (F := Ideal) x0 x1 (ix3 (0 : Fin 1) p c) = ∑ d : Fin 1024, x0 (ix3 (0 : Fin 1) p d) * x1 (ix2 d c) := by
  unfold k0_pay2 k0_pay1
  refine (block_of_rows _ _ p c).trans ?_
  refine (truncf_apply (ψ := .bf16) _ bitsLt_bf16_f32 (ix2 p c)).trans ?_
  refine (rows_times_square _ _ p c).trans ?_
  refine Finset.sum_congr rfl fun d _ => ?_
  rw [rows_of_block, shapeCast_self]

/-- and for the second table, the same with the other matrix. -/
theorem stored_end (x0 : Vec Ideal S1x512x1024 .bf16) (x2 : Vec Ideal S1024x1024 .bf16) (p : Fin 512) (c : Fin 1024) :
    k0_pay3 (F := Ideal) x0 x2 (ix3 (0 : Fin 1) p c) = ∑ d : Fin 1024, x0 (ix3 (0 : Fin 1) p d) * x2 (ix2 d c) := by
  unfold k0_pay3 k0_pay1
  refine (block_of_rows _ _ p c).trans ?_
  refine (truncf_apply (ψ := .bf16) _ bitsLt_bf16_f32 (ix2 p c)).trans ?_
  refine (rows_times_square _ _ p c).trans ?_
  refine Finset.sum_congr rfl fun d _ => ?_
  rw [rows_of_block, shapeCast_self]

/-- The stored block at any of its entries: its batch coordinate can only be 0. -/
theorem stored_start_at (x0 : Vec Ideal S1x512x1024 .bf16) (x1 : Vec Ideal S1024x1024 .bf16) (y : S1x512x1024.Idx) :
    k0_pay2 (F := Ideal) x0 x1 y = ∑ d : Fin 1024, x0 (ix3 (0 : Fin 1) (y 1) d) * x1 (ix2 d (y 2)) := by
  obtain ⟨a, p, q, rfl⟩ : ∃ (a : Fin 1) (p : Fin 512) (q : Fin 1024), y = ix3 a p q := ⟨y 0, y 1, y 2, eq_ix3 y⟩
  obtain rfl : a = 0 := Subsingleton.elim _ _
  exact stored_start x0 x1 p q

theorem stored_end_at (x0 : Vec Ideal S1x512x1024 .bf16) (x2 : Vec Ideal S1024x1024 .bf16) (y : S1x512x1024.Idx) :
    k0_pay3 (F := Ideal) x0 x2 y = ∑ d : Fin 1024, x0 (ix3 (0 : Fin 1) (y 1) d) * x2 (ix2 d (y 2)) := by
  obtain ⟨a, p, q, rfl⟩ : ∃ (a : Fin 1) (p : Fin 512) (q : Fin 1024), y = ix3 a p q := ⟨y 0, y 1, y 2, eq_ix3 y⟩
  obtain rfl : a = 0 := Subsingleton.elim _ _
  exact stored_end x0 x2 p q

/-! ## From the blocks to the two tables -/

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the eight points: point t takes block (t, 0, 0) of the sequence and of each table, and the
    whole of each matrix. -/
theorem block_of_point : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point t writes back into the first table is block t of the sequence times the first matrix. -/
theorem written_start (c : Dev nD) (t : Fin cfg0.N) :
    (dat0 (F := Ideal) V c).flushed 3 t
      = ((cfg0.win 3).blk t).view.read (Elt Ideal) (proj (V c main_v3) (V c main_v4)) := by
  show (cfg0.win 3).cut (grid0.coords t) ((dat0 V c).after 3 t) = _
  rw [after0_3]
  unfold out0_3
  rw [View.canon_unit_zero zero3]
  simp only [View.ld_unit_zero (S := S1x512x1024) zero3, View.ld_unit_zero (S := S1024x1024) zero2]
  funext j
  show k0_pay2 (F := Ideal) (iblk0 V c 0 t) (iblk0 V c 1 t) j = proj (V c main_v3) (V c main_v4) (((cfg0.win 3).blk t).view.emb j)
  refine (stored_start_at (iblk0 V c 0 t) (iblk0 V c 1 t) j).trans ?_
  obtain ⟨s0, s1, s2, a0, a1, b0, b1, o0, o1, o2, u0, u1, u2⟩ := block_of_point t
  refine Finset.sum_congr rfl fun d _ => ?_
  have hj0 : (j 0).val < 1 := (j 0).isLt
  have hrow : ((cfg0.win 0).blk t).view.emb (ix3 (0 : Fin 1) (j 1) d)
      = ix3 ((((cfg0.win 3).blk t).view.emb j) 0) ((((cfg0.win 3).blk t).view.emb j) 1) d := by
    funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 1024 + 1 * d.val = d.val; omega
  have hcol : ((cfg0.win 1).blk t).view.emb (ix2 d (j 2)) = ix2 d ((((cfg0.win 3).blk t).view.emb j) 2) := by
    funext a; apply Fin.ext
    match a with
    | ⟨0, _⟩ => show win0_1.index t (0 : Fin 2) * 1024 + 1 * d.val = d.val; omega
    | ⟨1, _⟩ => show win0_1.index t (1 : Fin 2) * 1024 + 1 * (j 2).val = win0_3.index t (2 : Fin 3) * 1024 + 1 * (j 2).val; omega
  exact congrArg₂ (fun a b : EReal => a * b) (congrArg (V c main_v3) hrow) (congrArg (V c main_v4) hcol)

/-- and into the second table, block t of the sequence times the second matrix. -/
theorem written_end (c : Dev nD) (t : Fin cfg0.N) :
    (dat0 (F := Ideal) V c).flushed 4 t
      = ((cfg0.win 4).blk t).view.read (Elt Ideal) (proj (V c main_v3) (V c main_v5)) := by
  show (cfg0.win 4).cut (grid0.coords t) ((dat0 V c).after 4 t) = _
  rw [after0_4]
  unfold out0_4
  rw [View.canon_unit_zero zero3]
  simp only [View.ld_unit_zero (S := S1x512x1024) zero3, View.ld_unit_zero (S := S1024x1024) zero2]
  funext j
  show k0_pay3 (F := Ideal) (iblk0 V c 0 t) (iblk0 V c 2 t) j = proj (V c main_v3) (V c main_v5) (((cfg0.win 4).blk t).view.emb j)
  refine (stored_end_at (iblk0 V c 0 t) (iblk0 V c 2 t) j).trans ?_
  obtain ⟨s0, s1, s2, a0, a1, b0, b1, o0, o1, o2, u0, u1, u2⟩ := block_of_point t
  refine Finset.sum_congr rfl fun d _ => ?_
  have hj0 : (j 0).val < 1 := (j 0).isLt
  have hrow : ((cfg0.win 0).blk t).view.emb (ix3 (0 : Fin 1) (j 1) d)
      = ix3 ((((cfg0.win 4).blk t).view.emb j) 0) ((((cfg0.win 4).blk t).view.emb j) 1) d := by
    funext a; apply Fin.ext
    match a with
    | ⟨0, _⟩ => show win0_0.index t (0 : Fin 3) * 1 + 1 * 0 = win0_4.index t (0 : Fin 3) * 1 + 1 * (j 0).val; omega
    | ⟨1, _⟩ => show win0_0.index t (1 : Fin 3) * 512 + 1 * (j 1).val = win0_4.index t (1 : Fin 3) * 512 + 1 * (j 1).val; omega
    | ⟨2, _⟩ => show win0_0.index t (2 : Fin 3) * 1024 + 1 * d.val = d.val; omega
  have hcol : ((cfg0.win 2).blk t).view.emb (ix2 d (j 2)) = ix2 d ((((cfg0.win 4).blk t).view.emb j) 2) := by
    funext a; apply Fin.ext
    match a with
    | ⟨0, _⟩ => show win0_2.index t (0 : Fin 2) * 1024 + 1 * d.val = d.val; omega
    | ⟨1, _⟩ => show win0_2.index t (1 : Fin 2) * 1024 + 1 * (j 2).val = win0_4.index t (2 : Fin 3) * 1024 + 1 * (j 2).val; omega
  exact congrArg₂ (fun a b : EReal => a * b) (congrArg (V c main_v3) hrow) (congrArg (V c main_v5) hcol)

/-- An entry of the first table is in point t's block iff each coordinate is in the block's range on its axis. -/
theorem in_block_start (t : Fin cfg0.N) (i : S8x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v6_0).slice (win0_3.rect t)).set ↔ _
  rw [View.set_slice_whole, Rect.mem_set_unit]
  exact Iff.rfl

/-- The same for the second table. -/
theorem in_block_end (t : Fin cfg0.N) (i : S8x512x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v6_1).slice (win0_4.rect t)).set ↔ _
  rw [View.set_slice_whole, Rect.mem_set_unit]
  exact Iff.rfl

/-- Every entry of the first table is written: batch row b is point b's block. -/
theorem covered_start (i : S8x512x1024.Idx) :
    ∃ t : Fin cfg0.N, (cfg0.win 3).flush t = true ∧ i ∈ ((cfg0.win 3).blk t).view.set := by
  have hN : cfg0.N = 8 := N_0
  have hi0 : (i 0).val < 8 := (i 0).isLt
  have hi1 : (i 1).val < 512 := (i 1).isLt
  have hi2 : (i 2).val < 1024 := (i 2).isLt
  obtain ⟨t, ht⟩ : ∃ t : Fin cfg0.N, t.val = (i 0).val := ⟨⟨(i 0).val, by omega⟩, rfl⟩
  refine ⟨t, flush0_3 t, ?_⟩
  rw [in_block_start]
  obtain ⟨s0, s1, s2, a0, a1, b0, b1, o0, o1, o2, u0, u1, u2⟩ := block_of_point t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- and every entry of the second. -/
theorem covered_end (i : S8x512x1024.Idx) :
    ∃ t : Fin cfg0.N, (cfg0.win 4).flush t = true ∧ i ∈ ((cfg0.win 4).blk t).view.set := by
  have hN : cfg0.N = 8 := N_0
  have hi0 : (i 0).val < 8 := (i 0).isLt
  have hi1 : (i 1).val < 512 := (i 1).isLt
  have hi2 : (i 2).val < 1024 := (i 2).isLt
  obtain ⟨t, ht⟩ : ∃ t : Fin cfg0.N, t.val = (i 0).val := ⟨⟨(i 0).val, by omega⟩, rfl⟩
  refine ⟨t, flush0_4 t, ?_⟩
  rw [in_block_end]
  obtain ⟨s0, s1, s2, a0, a1, b0, b1, o0, o1, o2, u0, u1, u2⟩ := block_of_point t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The start table: the sequence (as the kernel finds it) times the first block (as the kernel finds it). -/
theorem startTable (c : Dev nD) :
    (dat0 (F := Ideal) V c).arrAt 3 cfg0.N = proj (V c main_v3) (V c main_v4) :=
  (dat0 (F := Ideal) V c).arrAt_eq_of_cover 3 (proj (V c main_v3) (V c main_v4)) (fun t _ => written_start V c t) covered_start

/-- The end table: the same rows times the second block. -/
theorem endTable (c : Dev nD) :
    (dat0 (F := Ideal) V c).arrAt 4 cfg0.N = proj (V c main_v3) (V c main_v5) :=
  (dat0 (F := Ideal) V c).arrAt_eq_of_cover 4 (proj (V c main_v3) (V c main_v5)) (fun t _ => written_end V c t) covered_end

end Cert.KernelIdeal.Region0

end
-- ==== Proof.Region1Pay.lean ====
/- The second kernel's one store, read at an entry: row r of a tile of 512 spans, score l. -/
import proofs.«429336_j21028159881265_3_alg».proof.Proof.Gen.KernelIdeal.Skeleton
import proofs.«429336_j21028159881265_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1Pay

open Cert.KernelIdeal Cert.KernelIdeal.Gen Cert.SpanScore
open Idealize.ShloMosaic Idealize.ShloMosaic.ValueIdx

/-! ## Layout: a column of words copied along the rows, and the axis counter -/

/-- A vector of a entries set as a column [a, 1] and copied along b columns reads, at (r, k), its entry r. -/
theorem colBroadcast_apply {α : Type} {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (r : Fin a) (k : Fin b) :
    broadcastTo ⟨2, ![a, b]⟩ (shapeCast ⟨2, ![a, 1]⟩ v h1) h2 (ix2 r k) = v (ix1 r) := by
  refine (broadcastTo_apply _ h2 (ix2 r k) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply v h1 _ _ (by
      rw [Shape.rowMajor_val_one, Shape.rowMajor_val_two]
      show r.val = r.val * 1 + 0
      omega)

/-- The counter along the second axis of a matrix reads, at (r, k), the word of k. -/
theorem iotaCols_apply {a b : ℕ} (h : (⟨2, ![a, b]⟩ : Shape).Iotas .tc 32 [1]) (r : Fin a) (k : Fin b) :
    iota .tc ⟨2, ![a, b]⟩ 32 [1] h (ix2 r k) = BitVec.ofNat 32 k.val :=
  iota_single_apply .tc ⟨2, ![a, b]⟩ 32 1 h (ix2 r k)

/-! ## The indicator entry -/

/-- Compare, widen, convert, narrow: at an entry this is the indicator of "the word is the position". -/
theorem hotEntry_apply {s : Shape} (A B : IVec s 32) (h1 : 1 < 32) (h2 : FTy.bits .bf16 < FTy.bits .f32) (i : s.Idx)
    (w : BitVec 32) (k : ℕ) (hA : A i = w) (hB : B i = BitVec.ofNat 32 k) :
    (truncf .bf16 (sitofp (F := Ideal) .f32 (extui 32 (cmpi .eq A B) h1)) h2 : FVec Ideal s .bf16) i = hot w k := by
  show ((((IntOp.cmpi .eq (A i) (B i)).setWidth 32).toInt : ℝ) : EReal) = _
  rw [hA, hB]
  rfl

/-! ## The products, each as a sum over its one contracted axis

A product of a matrix [m, n] by a matrix [n, p] into the zero matrix reads, at (r, c), the sum over k of the left
operand at (r, k) times the right operand at (k, c). First where each operand is read (one coordinate at a time), then
the sum itself, for each of the three sizes the tile's body multiplies at. -/

theorem lhs_pick_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_pick_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_pick_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_pick_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- An indicator matrix [512, 512] times a table block [512, 1024], at (r, c). -/
theorem pick_apply (lhs : FVec Ideal S512x512 .bf16) (rhs : FVec Ideal S512x1024 .bf16) (r : Fin 512) (c : Fin 1024) :
    matmul dot_S512x512_S512x1024_S512x1024_1_0_0_1_n_n none lhs rhs (constant (F := Ideal) S512x1024 .f32 0x00000000#32) (ix2 r c)
      = ∑ k : Fin 512, lhs (ix2 r k) * rhs (ix2 k c) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r c) ((ValueIdx.contrEquiv1 dot_S512x512_S512x1024_S512x1024_1_0_0_1_n_n 512 rfl rfl).symm k) = ix2 r k := funext fun a => Fin.ext (by
    match a with
    | ⟨0, _⟩ => exact lhs_pick_0 _ _
    | ⟨1, _⟩ => exact (lhs_pick_1 _ _).trans hk)
  have er : dot_S512x512_S512x1024_S512x1024_1_0_0_1_n_n.rhsIdx (ix2 r c) ((ValueIdx.contrEquiv1 dot_S512x512_S512x1024_S512x1024_1_0_0_1_n_n 512 rfl rfl).symm k) = ix2 k c := funext fun a => Fin.ext (by
    match a with
    | ⟨0, _⟩ => exact (rhs_pick_0 _ _).trans hk
    | ⟨1, _⟩ => exact rhs_pick_1 _ _)
  rw [el, er]

theorem lhs_width_0 (i : S512x1024.Idx) (q : dot_S512x15_S15x1024_S512x1024_1_0_0_1_n_n.contr.Idx) :
    (dot_S512x15_S15x1024_S512x1024_1_0_0_1_n_n.lhsIdx i q 0).val = (i 0).val := by
  unfold DotDims.lhsIdx
  rw [dif_neg (show ¬(0 : Fin S512x15.rank) ∈ dot_S512x15_S15x1024_S512x1024_1_0_0_1_n_n.lhsBatch by decide), dif_pos (show (0 : Fin S512x15.rank) ∈ dot_S512x15_S15x1024_S512x1024_1_0_0_1_n_n.lhsNonContracting by decide)]
  rfl
theorem lhs_width_1 (i : S512x1024.Idx) (q : dot_S512x15_S15x1024_S512x1024_1_0_0_1_n_n.contr.Idx) :
    (dot_S512x15_S15x1024_S512x1024_1_0_0_1_n_n.lhsIdx i q 1).val = (q ⟨0, by decide⟩).val :=
  dot_S512x15_S15x1024_S512x1024_1_0_0_1_n_n.lhsIdx_val_of_single rfl i q
theorem rhs_width_0 (i : S512x1024.Idx) (q : dot_S512x15_S15x1024_S512x1024_1_0_0_1_n_n.contr.Idx) :
    (dot_S512x15_S15x1024_S512x1024_1_0_0_1_n_n.rhsIdx i q 0).val = (q ⟨0, by decide⟩).val :=
  dot_S512x15_S15x1024_S512x1024_1_0_0_1_n_n.rhsIdx_val_of_single rfl i q
theorem rhs_width_1 (i : S512x1024.Idx) (q : dot_S512x15_S15x1024_S512x1024_1_0_0_1_n_n.contr.Idx) :
    (dot_S512x15_S15x1024_S512x1024_1_0_0_1_n_n.rhsIdx i q 1).val = (i 1).val := by
  unfold DotDims.rhsIdx
  rw [dif_neg (show ¬(1 : Fin S15x1024.rank) ∈ dot_S512x15_S15x1024_S512x1024_1_0_0_1_n_n.rhsBatch by decide), dif_pos (show (1 : Fin S15x1024.rank) ∈ dot_S512x15_S15x1024_S512x1024_1_0_0_1_n_n.rhsNonContracting by decide)]
  rfl

/-- An indicator matrix [512, 15] times the projected width table [15, 1024], at (r, c). -/
theorem width_apply (lhs : FVec Ideal S512x15 .bf16) (rhs : FVec Ideal S15x1024 .bf16) (r : Fin 512) (c : Fin 1024) :
    matmul dot_S512x15_S15x1024_S512x1024_1_0_0_1_n_n none lhs rhs (constant (F := Ideal) S512x1024 .f32 0x00000000#32) (ix2 r c)
      = ∑ k : Fin 15, lhs (ix2 r k) * rhs (ix2 k c) := by
  simp only [matmul]
  rw [Ideal.matmul_constant_zero_apply, ← Equiv.sum_comp (ValueIdx.contrEquiv1 dot_S512x15_S15x1024_S512x1024_1_0_0_1_n_n 15 rfl rfl).symm]
  refine Finset.sum_congr rfl fun k _ => ?_
  have hk := ValueIdx.contrEquiv1_symm_val dot_S512x15_S15x1024_S512x1024_1_0_0_1_n_n 15 rfl rfl k
  have el : dot_S512x15_S15x1024_S512x1024_1_0_0_1_n_n.lhsIdx (ix2 r c) ((ValueIdx.contrEquiv1 dot_S512x15_S15x1024_S512x1024_1_0_0_1_n_n 15 rfl rfl).symm k) = ix2 r k := funext fun a => Fin.ext (by
    match a with
    | ⟨0, _⟩ => exact lhs_width_0 _ _
    | ⟨1, _⟩ => exact (lhs_width_1 _ _).trans hk)
  have er : dot_S512x15_S15x1024_S512x1024_1_0_0_1_n_n.rhsIdx (ix2 r c) ((ValueIdx.contrEquiv1 dot_S512x15_S15x1024_S512x1024_1_0_0_1_n_n 15 rfl rfl).symm k) = ix2 k c := funext fun a => Fin.ext (by
    match a with
    | ⟨0, _⟩ => exact (rhs_width_0 _ _).trans hk
    | ⟨1, _⟩ => exact rhs_width_1 _ _)
  rw [el, er]

theorem lhs_score_0 (i : S512x3.Idx) (q : dot_S512x1024_S1024x3_S512x3_1_0_0_1_n_n.contr.Idx) :
    (dot_S512x1024_S1024x3_S512x3_1_0_0_1_n_n.lhsIdx i q 0).val = (i 0).val := by
  unfold DotDims.lhsIdx
  rw [dif_neg (show ¬(0 : Fin S512x1024.rank) ∈ dot_S512x1024_S1024x3_S512x3_1_0_0_1_n_n.lhsBatch by decide), dif_pos (show (0 : Fin S512x1024.rank) ∈ dot_S512x1024_S1024x3_S512x3_1_0_0_1_n_n.lhsNonContracting by decide)]
  rfl
theorem lhs_score_1 (i : S512x3.Idx) (q : dot_S512x1024_S1024x3_S512x3_1_0_0_1_n_n.contr.Idx) :
    (dot_S512x1024_S1024x3_S512x3_1_0_0_1_n_n.lhsIdx i q 1).val = (q ⟨0, by decide⟩).val :=
  dot_S512x1024_S1024x3_S512x3_1_0_0_1_n_n.lhsIdx_val_of_single rfl i q
theorem rhs_score_0 (i : S512x3.Idx) (q : dot_S512x1024_S1024x3_S512x3_1_0_0_1_n_n.contr.Idx) :
    (dot_S512x1024_S1024x3_S512x3_1_0_0_1_n_n.rhsIdx i q 0).val = (q ⟨0, by decide⟩).val :=
  dot_S512x1024_S1024x3_S512x3_1_0_0_1_n_n.rhsIdx_val_of_single rfl i q
theorem rhs_score_1 (i : S512x3.Idx) (q : dot_S512x1024_S1024x3_S512x3_1_0_0_1_n_n.contr.Idx) :
    (dot_S512x1024_S1024x3_S512x3_1_0_0_1_n_n.rhsIdx i q 1).val = (i 1).val := by
  unfold DotDims.rhsIdx
  rw [dif_neg (show ¬(1 : Fin S1024x3.rank) ∈ dot_S512x1024_S1024x3_S512x3_1_0_0_1_n_n.rhsBatch by decide), dif_pos (show (1 : Fin S1024x3.rank) ∈ dot_S512x1024_S1024x3_S512x3_1_0_0_1_n_n.rhsNonContracting by decide)]
  rfl

/-- The hidden rows [512, 1024] times the second matrix [1024, 3], at (r, l). -/
theorem score_apply (lhs : FVec Ideal S512x1024 .bf16) (rhs : FVec Ideal S1024x3 .bf16) (r : Fin 512) (l : Fin 3) :
    matmul dot_S512x1024_S1024x3_S512x3_1_0_0_1_n_n none lhs rhs (constant (F := Ideal) S512x3 .f32 0x00000000#32) (ix2 r l)
      = ∑ c : Fin 1024, lhs (ix2 r c) * rhs (ix2 c l) := by
  simp only [matmul]
  rw [Ideal.matmul_constant_zero_apply, ← Equiv.sum_comp (ValueIdx.contrEquiv1 dot_S512x1024_S1024x3_S512x3_1_0_0_1_n_n 1024 rfl rfl).symm]
  refine Finset.sum_congr rfl fun k _ => ?_
  have hk := ValueIdx.contrEquiv1_symm_val dot_S512x1024_S1024x3_S512x3_1_0_0_1_n_n 1024 rfl rfl k
  have el : dot_S512x1024_S1024x3_S512x3_1_0_0_1_n_n.lhsIdx (ix2 r l) ((ValueIdx.contrEquiv1 dot_S512x1024_S1024x3_S512x3_1_0_0_1_n_n 1024 rfl rfl).symm k) = ix2 r k := funext fun a => Fin.ext (by
    match a with
    | ⟨0, _⟩ => exact lhs_score_0 _ _
    | ⟨1, _⟩ => exact (lhs_score_1 _ _).trans hk)
  have er : dot_S512x1024_S1024x3_S512x3_1_0_0_1_n_n.rhsIdx (ix2 r l) ((ValueIdx.contrEquiv1 dot_S512x1024_S1024x3_S512x3_1_0_0_1_n_n 1024 rfl rfl).symm k) = ix2 k l := funext fun a => Fin.ext (by
    match a with
    | ⟨0, _⟩ => exact (rhs_score_0 _ _).trans hk
    | ⟨1, _⟩ => exact rhs_score_1 _ _)
  rw [el, er]

/-! ## The payloads at an entry -/

/-- The clipped width word of row r: the end word minus the start word, kept between 0 and 14. -/
theorem widthWord_apply (x0 x1 : Vec Ideal S512 .i32) (r : Fin 512) :
    k1_pay6 (F := Ideal) x0 x1 (ix1 r) = clip 14#32 (IntOp.subi (x1 (ix1 r)) (x0 (ix1 r))) := by
  have e2 : k1_pay2 (F := Ideal) x0 = x0 := shapeCast_self x0 _
  have e3 : k1_pay3 (F := Ideal) x1 = x1 := shapeCast_self x1 _
  unfold k1_pay6
  rw [e2, e3]
  rfl

/-- The two picked rows of the projected tables, added: at (r, c) the row of the first table at the clipped start
    word plus the row of the second at the clipped end word, each as a sum against its indicator row. -/
theorem tables_apply (x0 x1 : Vec Ideal S512 .i32) (x2 x3 : Vec Ideal S1x512x1024 .bf16) (r : Fin 512) (c : Fin 1024) :
    k1_pay4 (F := Ideal) x0 x1 x2 x3 (ix2 r c)
      = (∑ k : Fin 512, hot (clip 511#32 (x0 (ix1 r))) k.val * x2 (ix3 (0 : Fin 1) k c))
        + (∑ k : Fin 512, hot (clip 511#32 (x1 (ix1 r))) k.val * x3 (ix3 (0 : Fin 1) k c)) := by
  have e2 : k1_pay2 (F := Ideal) x0 = x0 := shapeCast_self x0 _
  have e3 : k1_pay3 (F := Ideal) x1 = x1 := shapeCast_self x1 _
  unfold k1_pay4
  rw [e2, e3]
  refine (addf_apply _ _ _).trans ?_
  refine congrArg₂ (· + ·) ?_ ?_
  · refine (pick_apply _ _ r c).trans (Finset.sum_congr rfl fun k _ => ?_)
    refine congrArg₂ (· * ·) ?_ ?_
    · exact hotEntry_apply _ _ _ _ (ix2 r k) _ k.val (colBroadcast_apply _ _ _ r k) (iotaCols_apply _ r k)
    · exact shapeCast_1ab_ab_apply x2 _ k c
  · refine (pick_apply _ _ r c).trans (Finset.sum_congr rfl fun k _ => ?_)
    refine congrArg₂ (· * ·) ?_ ?_
    · exact hotEntry_apply _ _ _ _ (ix2 r k) _ k.val (colBroadcast_apply _ _ _ r k) (iotaCols_apply _ r k)
    · exact shapeCast_1ab_ab_apply x3 _ k c

/-- The stored block at (0, r, l) over any picked rows v31, width table v33 and width words v38: the width row is
    added as a sum against its indicator row, then the first bias, the positive part, the second matrix, the second bias. -/
theorem body_apply (v31 : FVec Ideal S512x1024 .f32) (v33 : FVec Ideal S15x1024 .bf16) (v38 : IVec S512 32)
    (x6 : Vec Ideal S1024 .f32) (x5 : Vec Ideal S1024x3 .bf16) (x7 : Vec Ideal S3 .f32) (r : Fin 512) (l : Fin 3) :
    k1_pay1 (F := Ideal) v31 v33 v38 (iota .tc S512x15 32 [1] iota_S512x15_d1_w32) x6 x5 x7 (ix3 (0 : Fin 1) r l)
      = (∑ c : Fin 1024,
          max ((v31 (ix2 r c) + ∑ k : Fin 15, hot (v38 (ix1 r)) k.val * v33 (ix2 k c)) + x6 (ix1 c)) 0 * x5 (ix2 c l))
        + x7 (ix1 l) := by
  unfold k1_pay1
  refine (shapeCast_ab_1ab_apply _ _ (0 : Fin 1) r l).trans ?_
  refine (addf_apply _ _ _).trans ?_
  refine congrArg₂ (· + ·) ?_ ?_
  · refine (score_apply _ _ r l).trans (Finset.sum_congr rfl fun c _ => ?_)
    refine congrArg₂ (· * ·) ?_ ?_
    · refine (maximumf_apply _ _ _).trans ?_
      refine congrArg₂ max ?_ ?_
      · refine (addf_apply _ _ _).trans ?_
        refine congrArg₂ (· + ·) ?_ ?_
        · refine (addf_apply _ _ _).trans ?_
          refine congrArg (v31 (ix2 r c) + ·) ?_
          refine (width_apply _ _ r c).trans (Finset.sum_congr rfl fun k _ => ?_)
          refine congrArg (· * v33 (ix2 k c)) ?_
          exact hotEntry_apply _ _ _ _ (ix2 r k) _ k.val (colBroadcast_apply _ _ _ r k) (iotaCols_apply _ r k)
        · exact (broadcastTo_1b_ab_apply _ _ r c).trans (shapeCast_a_1a_apply x6 _ 0 c)
      · exact Ideal.ofBits_zero_f32
    · exact congrFun (shapeCast_self x5 _) _
  · exact (broadcastTo_1b_ab_apply _ _ r l).trans (shapeCast_a_1a_apply x7 _ 0 l)

/-- What the tile's body stores at (row r, score l), from the tile's loaded blocks: the start and end words of the
    tile's spans, one batch row of each projected table, the projected width table, the second matrix, the two biases. -/
theorem stored_apply (x0 x1 : Vec Ideal S512 .i32) (x2 x3 : Vec Ideal S1x512x1024 .bf16) (x4 : Vec Ideal S15x1024 .bf16)
    (x5 : Vec Ideal S1024x3 .bf16) (x6 : Vec Ideal S1024 .f32) (x7 : Vec Ideal S3 .f32) (r : Fin 512) (l : Fin 3) :
    k1_pay1 (F := Ideal) (k1_pay4 x0 x1 x2 x3) (k1_pay5 x4) (k1_pay6 (F := Ideal) x0 x1) (iota .tc S512x15 32 [1] iota_S512x15_d1_w32) x6 x5 x7
        (ix3 (0 : Fin 1) r l)
      = (∑ c : Fin 1024,
          max ((((∑ k : Fin 512, hot (clip 511#32 (x0 (ix1 r))) k.val * x2 (ix3 (0 : Fin 1) k c))
                  + (∑ k : Fin 512, hot (clip 511#32 (x1 (ix1 r))) k.val * x3 (ix3 (0 : Fin 1) k c)))
                + (∑ k : Fin 15, hot (clip 14#32 (IntOp.subi (x1 (ix1 r)) (x0 (ix1 r)))) k.val * x4 (ix2 k c)))
              + x6 (ix1 c)) 0 * x5 (ix2 c l))
        + x7 (ix1 l) := by
  have e5 : k1_pay5 (F := Ideal) x4 = x4 := shapeCast_self x4 _
  rw [body_apply, e5]
  refine congrArg (· + x7 (ix1 l)) (Finset.sum_congr rfl fun c _ => ?_)
  rw [tables_apply, widthWord_apply]

end Cert.KernelIdeal.Region1Pay

end
-- ==== Proof.Region1.lean ====
/- The second kernel: for each batch row and each tile of 512 spans, the tile's scores. Its output array, after every
   tile's block has been written back, is the padded score array. -/
import proofs.«429336_j21028159881265_3_alg».proof.Proof.Gen.KernelIdeal.Frame
import proofs.«429336_j21028159881265_3_alg».proof.Proof.Spec
import proofs.«429336_j21028159881265_3_alg».proof.Proof.Region1Pay
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.SpanScore
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Zero offsets, however spelt. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: point t has batch row t / 15 and tile t % 15. -/
theorem idx_facts : ∀ t : Fin cfg1.N,
    (win1_8.index t (0 : Fin 3) = t.val / 15 ∧ win1_8.index t (1 : Fin 3) = t.val % 15 ∧ win1_8.index t (2 : Fin 3) = 0)
    ∧ win1_0.index t (0 : Fin 1) = t.val % 15
    ∧ win1_1.index t (0 : Fin 1) = t.val % 15
    ∧ (win1_2.index t (0 : Fin 3) = t.val / 15 ∧ win1_2.index t (1 : Fin 3) = 0 ∧ win1_2.index t (2 : Fin 3) = 0)
    ∧ (win1_3.index t (0 : Fin 3) = t.val / 15 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ win1_6.index t (0 : Fin 1) = 0
    ∧ win1_7.index t (0 : Fin 1) = 0 :=
  (by decide +kernel : ∀ t : Fin grid1.N, _)

/-- A point's number is below 120. -/
theorem t_lt (t : Fin cfg1.N) : t.val < 120 := by
  have h := t.isLt
  have hN : cfg1.N = 120 := N_1
  omega

/-! ## Each input block, read where the tile's rectangle says -/

/-- The tile's start words are the padded start words from position 512 · (t % 15) on. -/
theorem blk0_apply (c : Dev nD) (t : Fin cfg1.N) (r : Fin 512) (k : Fin 7680) (hk : k.val = t.val % 15 * 512 + r.val) :
    (iblk1 V c 0 t : Vec Ideal S512 .i32) (ix1 r) = (V c main_v10 : S7680.Idx → BitVec 32) (ix1 k) := by
  obtain ⟨-, e, -⟩ := idx_facts t
  unfold iblk1
  rw [View.read_apply]
  show V c main_v10 _ = V c main_v10 _
  refine congrArg _ ?_
  funext a
  apply Fin.ext
  match a with
  | ⟨0, _⟩ => show win1_0.index t (0 : Fin 1) * 512 + 1 * r.val = k.val; rw [e, hk]; omega

/-- The tile's end words, likewise. -/
theorem blk1_apply (c : Dev nD) (t : Fin cfg1.N) (r : Fin 512) (k : Fin 7680) (hk : k.val = t.val % 15 * 512 + r.val) :
    (iblk1 V c 1 t : Vec Ideal S512 .i32) (ix1 r) = (V c main_v11 : S7680.Idx → BitVec 32) (ix1 k) := by
  obtain ⟨-, -, e, -⟩ := idx_facts t
  unfold iblk1
  rw [View.read_apply]
  show V c main_v11 _ = V c main_v11 _
  refine congrArg _ ?_
  funext a
  apply Fin.ext
  match a with
  | ⟨0, _⟩ => show win1_1.index t (0 : Fin 1) * 512 + 1 * r.val = k.val; rw [e, hk]; omega

/-- The tile's block of the first projected table is batch row t / 15 of it. -/
theorem blk2_apply (c : Dev nD) (t : Fin cfg1.N) (b : Fin 8) (hb : b.val = t.val / 15) (k : Fin 512) (d : Fin 1024) :
    (iblk1 V c 2 t : Vec Ideal S1x512x1024 .bf16) (ix3 (0 : Fin 1) k d) = (V c main_v6_0 : S8x512x1024.Idx → EReal) (ix3 b k d) := by
  obtain ⟨-, -, -, ⟨e0, e1, e2⟩, -⟩ := idx_facts t
  unfold iblk1
  rw [View.read_apply]
  show V c main_v6_0 _ = V c main_v6_0 _
  refine congrArg _ ?_
  funext a
  apply Fin.ext
  match a with
  | ⟨0, _⟩ => show win1_2.index t (0 : Fin 3) * 1 + 1 * (0 : Fin 1).val = b.val; rw [e0, hb]; show t.val / 15 * 1 + 1 * 0 = _; omega
  | ⟨1, _⟩ => show win1_2.index t (1 : Fin 3) * 512 + 1 * k.val = k.val; rw [e1]; omega
  | ⟨2, _⟩ => show win1_2.index t (2 : Fin 3) * 1024 + 1 * d.val = d.val; rw [e2]; omega

/-- The tile's block of the second projected table, likewise. -/
theorem blk3_apply (c : Dev nD) (t : Fin cfg1.N) (b : Fin 8) (hb : b.val = t.val / 15) (k : Fin 512) (d : Fin 1024) :
    (iblk1 V c 3 t : Vec Ideal S1x512x1024 .bf16) (ix3 (0 : Fin 1) k d) = (V c main_v6_1 : S8x512x1024.Idx → EReal) (ix3 b k d) := by
  obtain ⟨-, -, -, -, ⟨e0, e1, e2⟩, -⟩ := idx_facts t
  unfold iblk1
  rw [View.read_apply]
  show V c main_v6_1 _ = V c main_v6_1 _
  refine congrArg _ ?_
  funext a
  apply Fin.ext
  match a with
  | ⟨0, _⟩ => show win1_3.index t (0 : Fin 3) * 1 + 1 * (0 : Fin 1).val = b.val; rw [e0, hb]; show t.val / 15 * 1 + 1 * 0 = _; omega
  | ⟨1, _⟩ => show win1_3.index t (1 : Fin 3) * 512 + 1 * k.val = k.val; rw [e1]; omega
  | ⟨2, _⟩ => show win1_3.index t (2 : Fin 3) * 1024 + 1 * d.val = d.val; rw [e2]; omega

/-- The projected width table is read whole. -/
theorem blk4_apply (c : Dev nD) (t : Fin cfg1.N) (k : Fin 15) (d : Fin 1024) :
    (iblk1 V c 4 t : Vec Ideal S15x1024 .bf16) (ix2 k d) = (V c main_v8 : S15x1024.Idx → EReal) (ix2 k d) := by
  obtain ⟨-, -, -, -, -, ⟨e0, e1⟩, -⟩ := idx_facts t
  unfold iblk1
  rw [View.read_apply]
  show V c main_v8 _ = V c main_v8 _
  refine congrArg _ ?_
  funext a
  apply Fin.ext
  match a with
  | ⟨0, _⟩ => show win1_4.index t (0 : Fin 2) * 15 + 1 * k.val = k.val; rw [e0]; omega
  | ⟨1, _⟩ => show win1_4.index t (1 : Fin 2) * 1024 + 1 * d.val = d.val; rw [e1]; omega

/-- The second matrix is read whole. -/
theorem blk5_apply (c : Dev nD) (t : Fin cfg1.N) (d : Fin 1024) (l : Fin 3) :
    (iblk1 V c 5 t : Vec Ideal S1024x3 .bf16) (ix2 d l) = (V c main_v9 : S1024x3.Idx → EReal) (ix2 d l) := by
  obtain ⟨-, -, -, -, -, -, ⟨e0, e1⟩, -⟩ := idx_facts t
  unfold iblk1
  rw [View.read_apply]
  show V c main_v9 _ = V c main_v9 _
  refine congrArg _ ?_
  funext a
  apply Fin.ext
  match a with
  | ⟨0, _⟩ => show win1_5.index t (0 : Fin 2) * 1024 + 1 * d.val = d.val; rw [e0]; omega
  | ⟨1, _⟩ => show win1_5.index t (1 : Fin 2) * 3 + 1 * l.val = l.val; rw [e1]; omega

/-- The first bias is read whole. -/
theorem blk6_apply (c : Dev nD) (t : Fin cfg1.N) (d : Fin 1024) :
    (iblk1 V c 6 t : Vec Ideal S1024 .f32) (ix1 d) = (V c main_arg3 : S1024.Idx → EReal) (ix1 d) := by
  obtain ⟨-, -, -, -, -, -, -, e, -⟩ := idx_facts t
  unfold iblk1
  rw [View.read_apply]
  show V c main_arg3 _ = V c main_arg3 _
  refine congrArg _ ?_
  funext a
  apply Fin.ext
  match a with
  | ⟨0, _⟩ => show win1_6.index t (0 : Fin 1) * 1024 + 1 * d.val = d.val; rw [e]; omega

/-- The second bias is read whole. -/
theorem blk7_apply (c : Dev nD) (t : Fin cfg1.N) (l : Fin 3) :
    (iblk1 V c 7 t : Vec Ideal S3 .f32) (ix1 l) = (V c main_arg5 : S3.Idx → EReal) (ix1 l) := by
  obtain ⟨-, -, -, -, -, -, -, -, e⟩ := idx_facts t
  unfold iblk1
  rw [View.read_apply]
  show V c main_arg5 _ = V c main_arg5 _
  refine congrArg _ ?_
  funext a
  apply Fin.ext
  match a with
  | ⟨0, _⟩ => show win1_7.index t (0 : Fin 1) * 3 + 1 * l.val = l.val; rw [e]; omega

/-! ## What a point stores at an entry of its tile -/

/-- Row r, score l of the tile of point t is the padded score array at batch row t / 15, span 512 · (t % 15) + r. -/
theorem stored_entry (c : Dev nD) (t : Fin cfg1.N) (r : Fin 512) (l : Fin 3) (b : Fin 8) (hb : b.val = t.val / 15)
    (k : Fin 7680) (hk : k.val = t.val % 15 * 512 + r.val) :
    k1_pay1 (F := Ideal) (k1_pay4 (iblk1 V c 0 t) (iblk1 V c 1 t) (iblk1 V c 2 t) (iblk1 V c 3 t)) (k1_pay5 (iblk1 V c 4 t))
        (k1_pay6 (F := Ideal) (iblk1 V c 0 t) (iblk1 V c 1 t)) (iota .tc S512x15 32 [1] iota_S512x15_d1_w32) (iblk1 V c 6 t)
        (iblk1 V c 5 t) (iblk1 V c 7 t) (ix3 (0 : Fin 1) r l)
      = logitK (V c main_v10) (V c main_v11) (V c main_v6_0) (V c main_v6_1) (V c main_v8) (V c main_v9) (V c main_arg3) (V c main_arg5)
          (ix3 b k l) := by
  refine (Region1Pay.stored_apply (iblk1 V c 0 t) (iblk1 V c 1 t) (iblk1 V c 2 t) (iblk1 V c 3 t) (iblk1 V c 4 t) (iblk1 V c 5 t)
    (iblk1 V c 6 t) (iblk1 V c 7 t) r l).trans ?_
  simp only [blk0_apply V c t r k hk, blk1_apply V c t r k hk, blk2_apply V c t b hb, blk3_apply V c t b hb, blk4_apply V c t,
    blk5_apply V c t, blk6_apply V c t, blk7_apply V c t]
  rfl

/-! ## What a point writes back, and where -/

/-- Point t writes back its block of the padded score array. -/
theorem flushed_eq (c : Dev nD) (t : Fin cfg1.N) :
    (dat1 (F := Ideal) V c).flushed 8 t = ((cfg1.win 8).blk t).view.read (Elt Ideal)
      (logitK (V c main_v10) (V c main_v11) (V c main_v6_0) (V c main_v6_1) (V c main_v8) (V c main_v9) (V c main_arg3) (V c main_arg5)) := by
  show (cfg1.win 8).cut (grid1.coords t) ((dat1 V c).after 8 t) = _
  rw [after1_8]
  unfold out1_8
  rw [View.canon_unit_zero hz3]
  simp only [View.ld_unit_zero (S := S512) hz1, View.ld_unit_zero (S := S1x512x1024) hz3, View.ld_unit_zero (S := S15x1024) hz2,
    View.ld_unit_zero (S := S1024) hz1, View.ld_unit_zero (S := S1024x3) hz2, View.ld_unit_zero (S := S3) hz1]
  have ht := t_lt t
  obtain ⟨⟨e0, e1, e2⟩, -⟩ := idx_facts t
  funext j
  obtain ⟨a, r, l, rfl⟩ : ∃ (a : Fin 1) (r : Fin 512) (l : Fin 3), j = ix3 a r l :=
    ⟨j 0, j 1, j 2, eq_ix3 (n0 := 1) (n1 := 512) (n2 := 3) j⟩
  obtain rfl : a = 0 := Subsingleton.elim _ _
  have hL : (win1 8).xinj (grid1.coords t) (ix3 (0 : Fin 1) r l) = ix3 (0 : Fin 1) r l := by
    funext a; match a with | ⟨0, _⟩ => rfl | ⟨1, _⟩ => rfl | ⟨2, _⟩ => rfl
  have hR : ((cfg1.win 8).blk t).view.emb (ix3 (0 : Fin 1) r l)
      = ix3 (⟨t.val / 15, by omega⟩ : Fin 8) (⟨t.val % 15 * 512 + r.val, by have := r.isLt; omega⟩ : Fin 7680) l := by
    funext a; apply Fin.ext
    match a with
    | ⟨0, _⟩ => show win1_8.index t (0 : Fin 3) * 1 + 1 * (0 : Fin 1).val = t.val / 15; rw [e0]; show t.val / 15 * 1 + 1 * 0 = _; omega
    | ⟨1, _⟩ => show win1_8.index t (1 : Fin 3) * 512 + 1 * r.val = t.val % 15 * 512 + r.val; rw [e1]; omega
    | ⟨2, _⟩ => show win1_8.index t (2 : Fin 3) * 3 + 1 * l.val = l.val; rw [e2]; omega
  show k1_pay1 (F := Ideal) (k1_pay4 (iblk1 V c 0 t) (iblk1 V c 1 t) (iblk1 V c 2 t) (iblk1 V c 3 t)) (k1_pay5 (iblk1 V c 4 t))
        (k1_pay6 (F := Ideal) (iblk1 V c 0 t) (iblk1 V c 1 t)) (iota .tc S512x15 32 [1] iota_S512x15_d1_w32) (iblk1 V c 6 t)
        (iblk1 V c 5 t) (iblk1 V c 7 t) ((win1 8).xinj (grid1.coords t) (ix3 (0 : Fin 1) r l))
      = logitK (V c main_v10) (V c main_v11) (V c main_v6_0) (V c main_v6_1) (V c main_v8) (V c main_v9) (V c main_arg3) (V c main_arg5)
          (((cfg1.win 8).blk t).view.emb (ix3 (0 : Fin 1) r l))
  rw [hL, hR]
  exact stored_entry V c t r l _ rfl _ rfl

/-- An entry of the output array is in point t's block iff each coordinate is in the block's range on its axis. -/
theorem mem_blk (t : Fin cfg1.N) (i : S8x7680x3.Idx) :
    i ∈ ((cfg1.win 8).blk t).view.set
      ↔ ∀ a : Fin 3, win1_8.index t a * S1x512x3.size a ≤ (i a).val ∧ (i a).val < win1_8.index t a * S1x512x3.size a + S1x512x3.size a := by
  show i ∈ ((View.whole main_v12).slice (win1_8.rect t)).set ↔ _
  rw [View.set_slice_whole, Rect.mem_set_unit]
  exact Iff.rfl

/-- Every entry (b, j, l) of the output array lies in the block of the point with batch row b and tile j / 512. -/
theorem cover (i : S8x7680x3.Idx) :
    ∃ t : Fin cfg1.N, (cfg1.win 8).flush t = true ∧ i ∈ ((cfg1.win 8).blk t).view.set := by
  have h0 : (i 0).val < 8 := (i 0).isLt
  have h1 : (i 1).val < 7680 := (i 1).isLt
  have h2 : (i 2).val < 3 := (i 2).isLt
  have hN : cfg1.N = 120 := N_1
  obtain ⟨t, tv⟩ : ∃ t : Fin cfg1.N, t.val = (i 0).val * 15 + (i 1).val / 512 := ⟨⟨_, by omega⟩, rfl⟩
  refine ⟨t, flush1_8 t, ?_⟩
  rw [mem_blk]
  obtain ⟨⟨e0, e1, e2⟩, -⟩ := idx_facts t
  intro a
  match a with
  | ⟨0, _⟩ =>
    show win1_8.index t (0 : Fin 3) * 1 ≤ (i 0).val ∧ (i 0).val < win1_8.index t (0 : Fin 3) * 1 + 1
    rw [e0, tv]; omega
  | ⟨1, _⟩ =>
    show win1_8.index t (1 : Fin 3) * 512 ≤ (i 1).val ∧ (i 1).val < win1_8.index t (1 : Fin 3) * 512 + 512
    rw [e1, tv]; omega
  | ⟨2, _⟩ =>
    show win1_8.index t (2 : Fin 3) * 3 ≤ (i 2).val ∧ (i 2).val < win1_8.index t (2 : Fin 3) * 3 + 3
    rw [e2]; omega

/-- The padded score array, from the eight arrays the kernel finds. -/
theorem scores (c : Dev nD) :
    (dat1 (F := Ideal) V c).arrAt 8 cfg1.N
      = logitK (V c main_v10) (V c main_v11) (V c main_v6_0) (V c main_v6_1) (V c main_v8) (V c main_v9) (V c main_arg3) (V c main_arg5) := by
  exact (dat1 (F := Ideal) V c).arrAt_eq_of_cover 8
    (logitK (V c main_v10) (V c main_v11) (V c main_v6_0) (V c main_v6_1) (V c main_v8) (V c main_v9) (V c main_arg3) (V c main_arg5))
    (fun t _ => flushed_eq V c t) cover

end Cert.KernelIdeal.Region1

end
-- ==== Proof.HostVals.lean ====
/- What the host operations around the two kernels compute, read off the fold through @main: the arrays each kernel
   finds when it is entered, and the result as the slice of the second kernel's padded output. -/
import proofs.«429336_j21028159881265_3_alg».proof.Proof.Gen.KernelIdeal.Frame
import proofs.«429336_j21028159881265_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

open scoped BigOperators

namespace Cert.KernelIdeal.HostVals

open Cert.KernelIdeal Cert.KernelIdeal.Gen Cert.SpanScore
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## Walking a buffer back through the fold -/

/-- An argument that region 0 neither reads as an output nor writes is, at region 0's exit, what the launch memory held. -/
theorem W2_main_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl
theorem W2_main_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl
theorem W2_main_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results <;> rfl
theorem W2_main_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results <;> rfl
theorem W2_main_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl
theorem W2_main_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

/-! ## The width table times the last block, entry by entry -/

theorem dotW_lhs0 (i : S15x1024.Idx) (q : dot_S15x64_S64x1024_S15x1024_1_0_0_1_n_n.contr.Idx) : (dot_S15x64_S64x1024_S15x1024_1_0_0_1_n_n.lhsIdx i q 0).val = (i 0).val := by
  unfold DotDims.lhsIdx
  rw [dif_neg (show ¬(0 : Fin S15x64.rank) ∈ dot_S15x64_S64x1024_S15x1024_1_0_0_1_n_n.lhsBatch by decide), dif_pos (show (0 : Fin S15x64.rank) ∈ dot_S15x64_S64x1024_S15x1024_1_0_0_1_n_n.lhsNonContracting by decide)]
  rfl
theorem dotW_lhs1 (i : S15x1024.Idx) (q : dot_S15x64_S64x1024_S15x1024_1_0_0_1_n_n.contr.Idx) : (dot_S15x64_S64x1024_S15x1024_1_0_0_1_n_n.lhsIdx i q 1).val = (q ⟨0, by decide⟩).val :=
  dot_S15x64_S64x1024_S15x1024_1_0_0_1_n_n.lhsIdx_val_of_single rfl i q
theorem dotW_rhs0 (i : S15x1024.Idx) (q : dot_S15x64_S64x1024_S15x1024_1_0_0_1_n_n.contr.Idx) : (dot_S15x64_S64x1024_S15x1024_1_0_0_1_n_n.rhsIdx i q 0).val = (q ⟨0, by decide⟩).val :=
  dot_S15x64_S64x1024_S15x1024_1_0_0_1_n_n.rhsIdx_val_of_single rfl i q
theorem dotW_rhs1 (i : S15x1024.Idx) (q : dot_S15x64_S64x1024_S15x1024_1_0_0_1_n_n.contr.Idx) : (dot_S15x64_S64x1024_S15x1024_1_0_0_1_n_n.rhsIdx i q 1).val = (i 1).val := by
  unfold DotDims.rhsIdx
  rw [dif_neg (show ¬(1 : Fin S64x1024.rank) ∈ dot_S15x64_S64x1024_S15x1024_1_0_0_1_n_n.rhsBatch by decide), dif_pos (show (1 : Fin S64x1024.rank) ∈ dot_S15x64_S64x1024_S15x1024_1_0_0_1_n_n.rhsNonContracting by decide)]
  rfl

/-- The host's product of a 15×64 table with a 64×1024 block, read at (w, c): the sum over d of E[w, d] · B[d, c]. -/
theorem dotW_apply (E : FVec Ideal S15x64 .f32) (B : FVec Ideal S64x1024 .f32) (i : S15x1024.Idx) :
    Host.dotGeneral dot_S15x64_S64x1024_S15x1024_1_0_0_1_n_n none E B i = projW E B i := by
  simp only [Host.dotGeneral]
  rw [Ideal.dotGeneral_apply, ← Equiv.sum_comp (ValueIdx.contrEquiv1 dot_S15x64_S64x1024_S15x1024_1_0_0_1_n_n 64 rfl rfl).symm]
  unfold projW
  refine Finset.sum_congr rfl fun k _ => ?_
  have hk := ValueIdx.contrEquiv1_symm_val dot_S15x64_S64x1024_S15x1024_1_0_0_1_n_n 64 rfl rfl k
  have el : dot_S15x64_S64x1024_S15x1024_1_0_0_1_n_n.lhsIdx i ((ValueIdx.contrEquiv1 dot_S15x64_S64x1024_S15x1024_1_0_0_1_n_n 64 rfl rfl).symm k) = ix2 (i 0) k := funext fun a => Fin.ext (by
    match a with
    | ⟨0, _⟩ => exact dotW_lhs0 _ _
    | ⟨1, _⟩ => exact (dotW_lhs1 _ _).trans hk)
  have er : dot_S15x64_S64x1024_S15x1024_1_0_0_1_n_n.rhsIdx i ((ValueIdx.contrEquiv1 dot_S15x64_S64x1024_S15x1024_1_0_0_1_n_n 64 rfl rfl).symm k) = ix2 k (i 1) := funext fun a => Fin.ext (by
    match a with
    | ⟨0, _⟩ => exact (dotW_rhs0 _ _).trans hk
    | ⟨1, _⟩ => exact dotW_rhs1 _ _)
  rw [el, er]
  rfl

/-- The last 64 rows of the first weight matrix read at an index: row 2048 + i₀, column i₁. -/
theorem sliceC_apply (A : (⟨S2112x1024, .f32⟩ : BufTy).Contents (Elt Ideal)) (i : S64x1024.Idx) :
    extractStridedSlice S64x1024 ![2048, 0] A slices_S2112x1024_S64x1024_2048_0 i = blockC A i := by
  refine extractStridedSlice_apply ![2048, 0] A slices_S2112x1024_S64x1024_2048_0 i
    (ix2 ⟨2048 + (i 0).val, by have hi : (i 0).val < 64 := (i 0).isLt; omega⟩ (i 1)) fun a => ?_
  match a with
  | ⟨0, _⟩ => rfl
  | ⟨1, _⟩ => exact (Nat.zero_add _).symm

/-- The last block as the first stretch of host operations cut it, untouched by region 0. -/
theorem W2_main_v2 (c : Dev nD) : W2 m ρ c (Proc.devRef .tc main_v2) = blockC (m ((c : Thread nD τ).loc main_arg2)) := by
  rw [W2_of_ne m ρ c main_v2 (by decide)]
  show StableHlo.after hostOps0 (W0 m ρ c) (Proc.devRef .tc main_v2) = _
  after_results
  funext i
  exact sliceC_apply (m ((c : Thread nD τ).loc main_arg2)) i

/-! ## What the first kernel finds -/

/-- The sequence, its change of format the identity on the extended reals. -/
theorem entry0_seq (c : Dev nD) : V1 m ρ c main_v3 = m ((c : Thread nD τ).loc main_arg0) := by
  show StableHlo.after hostOps0 (W0 m ρ c) (Proc.devRef .tc main_v3) = _
  after_results
  rfl

/-- A block of 1024 rows of the first weight matrix read at an index: row off + i₀, column i₁. -/
theorem sliceA_apply (A : (⟨S2112x1024, .f32⟩ : BufTy).Contents (Elt Ideal)) (off : Nat) (h : off + 1024 ≤ 2112)
    (hs : S2112x1024.Slices ![off, 0] S1024x1024) (i : S1024x1024.Idx) :
    extractStridedSlice S1024x1024 ![off, 0] A hs i = blockA A off h i := by
  refine extractStridedSlice_apply ![off, 0] A hs i (ix2 ⟨off + (i 0).val, by have hi : (i 0).val < 1024 := (i 0).isLt; omega⟩ (i 1)) fun a => ?_
  match a with
  | ⟨0, _⟩ => rfl
  | ⟨1, _⟩ => exact (Nat.zero_add _).symm

/-- The first square block of the first weight matrix. -/
theorem entry0_blockS (c : Dev nD) : V1 m ρ c main_v4 = blockA (m ((c : Thread nD τ).loc main_arg2)) 0 (by decide) := by
  show StableHlo.after hostOps0 (W0 m ρ c) (Proc.devRef .tc main_v4) = _
  after_results
  funext i
  exact sliceA_apply (m ((c : Thread nD τ).loc main_arg2)) 0 (by decide) slices_S2112x1024_S1024x1024_0_0 i

/-- The second square block. -/
theorem entry0_blockE (c : Dev nD) : V1 m ρ c main_v5 = blockA (m ((c : Thread nD τ).loc main_arg2)) 1024 (by decide) := by
  show StableHlo.after hostOps0 (W0 m ρ c) (Proc.devRef .tc main_v5) = _
  after_results
  funext i
  exact sliceA_apply (m ((c : Thread nD τ).loc main_arg2)) 1024 (by decide) slices_S2112x1024_S1024x1024_1024_0 i

/-! ## What the second kernel finds -/

/-- A vector of 7575 words padded at its high end to 7680, read at a position below 7575, is the word there. -/
theorem padHi_apply (x : (⟨S7575, .i32⟩ : BufTy).Contents (Elt Ideal)) (v : (⟨S_, .i32⟩ : BufTy).Contents (Elt Ideal)) (j : Fin 7575) :
    pad S7680 ![0] ![105] ![0] x v pads_S7575_S7680_01050 h_S_ (ix1 (⟨j.val, by have := j.isLt; omega⟩ : Fin 7680)) = x (ix1 j) := by
  refine pad_apply_of_inside ![0] ![105] ![0] x v pads_S7575_S7680_01050 h_S_ _ (ix1 j) fun a => ?_
  match a with
  | ⟨0, _⟩ => show j.val = 0 + j.val * (0 + 1); omega

/-- The padded start words hold the start words at every span that is not padding. -/
theorem entry1_starts (c : Dev nD) (j : Fin 7575) :
    V6 m ρ c main_v10 (ix1 (⟨j.val, by have := j.isLt; omega⟩ : Fin 7680)) = m ((c : Thread nD τ).loc main_arg6) (ix1 j) := by
  show StableHlo.after hostOps1_3 (W5 m ρ c) (Proc.devRef .tc main_v10) (ix1 (⟨j.val, _⟩ : Fin 7680)) = _
  after_results
  rw [W2_main_arg6]
  exact padHi_apply _ _ j

theorem entry1_ends (c : Dev nD) (j : Fin 7575) :
    V6 m ρ c main_v11 (ix1 (⟨j.val, by have := j.isLt; omega⟩ : Fin 7680)) = m ((c : Thread nD τ).loc main_arg7) (ix1 j) := by
  show StableHlo.after hostOps1_3 (W5 m ρ c) (Proc.devRef .tc main_v11) (ix1 (⟨j.val, _⟩ : Fin 7680)) = _
  after_results
  rw [W2_main_arg7]
  exact padHi_apply _ _ j

/-- The two projected tables are what the first kernel left. -/
theorem entry1_tableS (c : Dev nD) : V6 m ρ c main_v6_0 = (dat0 (V1 m ρ) c).arrAt 3 cfg0.N := by
  show StableHlo.after hostOps1_3 (W5 m ρ c) (Proc.devRef .tc main_v6_0) = _
  after_results
  exact W2_arr m ρ c 3

theorem entry1_tableE (c : Dev nD) : V6 m ρ c main_v6_1 = (dat0 (V1 m ρ) c).arrAt 4 cfg0.N := by
  show StableHlo.after hostOps1_3 (W5 m ρ c) (Proc.devRef .tc main_v6_1) = _
  after_results
  exact W2_arr m ρ c 4

/-- The projected width table: the width table times the last block. -/
theorem entry1_tableW (c : Dev nD) :
    V6 m ρ c main_v8 = projW (m ((c : Thread nD τ).loc main_arg1)) (blockC (m ((c : Thread nD τ).loc main_arg2))) := by
  show StableHlo.after hostOps1_3 (W5 m ρ c) (Proc.devRef .tc main_v8) = _
  after_results
  rw [W2_main_arg1, W2_main_v2]
  funext i
  exact dotW_apply _ _ i

theorem entry1_w2 (c : Dev nD) : V6 m ρ c main_v9 = m ((c : Thread nD τ).loc main_arg4) := by
  show StableHlo.after hostOps1_3 (W5 m ρ c) (Proc.devRef .tc main_v9) = _
  after_results
  rw [W2_main_arg4]
  rfl

theorem entry1_b1 (c : Dev nD) : V6 m ρ c main_arg3 = m ((c : Thread nD τ).loc main_arg3) := by
  show StableHlo.after hostOps1_3 (W5 m ρ c) (Proc.devRef .tc main_arg3) = _
  after_results
  exact W2_main_arg3 m ρ c

theorem entry1_b2 (c : Dev nD) : V6 m ρ c main_arg5 = m ((c : Thread nD τ).loc main_arg5) := by
  show StableHlo.after hostOps1_3 (W5 m ρ c) (Proc.devRef .tc main_arg5) = _
  after_results
  exact W2_main_arg5 m ρ c

/-! ## The result -/

/-- The result is the padded output with the padding spans cut off. -/
theorem result_apply (c : Dev nD) (b : Fin 8) (j : Fin 7575) (l : Fin 3) :
    W8 m ρ c (Proc.devRef .tc main_v13) (ix3 b j l)
      = (dat1 (V6 m ρ) c).arrAt 8 cfg1.N (ix3 b (⟨j.val, by have := j.isLt; omega⟩ : Fin 7680) l) := by
  show StableHlo.after hostOps2 (W7 m ρ c) (Proc.devRef .tc main_v13) (ix3 b j l) = _
  after_results
  have e : W7 m ρ c (Proc.devRef .tc main_v12) = (dat1 (V6 m ρ) c).arrAt 8 cfg1.N := W7_arr m ρ c 8
  rw [e]
  refine extractStridedSlice_apply ![0, 0, 0] _ slices_S8x7680x3_S8x7575x3_0_0_0 (ix3 b j l) (ix3 b (⟨j.val, by have := j.isLt; omega⟩ : Fin 7680) l) fun a => ?_
  match a with
  | ⟨0, _⟩ => exact (Nat.zero_add _).symm
  | ⟨1, _⟩ => exact (Nat.zero_add _).symm
  | ⟨2, _⟩ => exact (Nat.zero_add _).symm

end Cert.KernelIdeal.HostVals

end
-- ==== Proof.RefValue.lean ====
/- The reference's result, read one entry at a time: the gathered start, end and width rows laid side by side, one
   product with the first weight matrix, the bias, the positive part, the product with the second weight matrix, the bias. -/
import proofs.«429336_j21028159881265_3_alg».proof.Proof.Gen.ReferenceIdeal.Run
import proofs.«429336_j21028159881265_3_alg».proof.Proof.Gen.ReferenceIdeal.Read
import proofs.«429336_j21028159881265_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.SpanScore.Ref

open Cert.ReferenceIdeal Cert.ReferenceIdeal.Gen Cert.ReferenceIdeal.Read Cert.SpanScore
open Idealize.ShloMosaic Idealize.ShloMosaic.ValueIdx

/-! ## The two gathers at an entry -/

private abbrev D3 := gather_S8x512x1024_S7575x1_S8x7575x1024_02_1_n_n_1_1_811024
private abbrev D2 := gather_S15x64_S7575x1_S7575x64_1_0_n_n_0_1_164

/-- Gathering whole rows of the sequence: entry (b, j, d) of the result is the sequence at batch row b, feature d, and the
    position the j-th start word names, read signed and kept inside [0, 511]. -/
theorem gather_rows_apply {α : Type} (x : S8x512x1024.Idx → α) (idx : IVec S7575x1 32)
    (b : Fin 8) (j : Fin 7575) (d : Fin 1024) :
    Host.gather gather_S8x512x1024_S7575x1_S8x7575x1024_02_1_n_n_1_1_811024 x idx (ix3 b j d)
      = x (ix3 b ⟨min (idx (ix2 j 0)).toInt.toNat 511, by omega⟩ d) := by
  unfold Host.gather
  congr 1
  funext a
  refine Fin.ext ?_
  show D3.start (ix3 b j d) idx a + D3.batchCoord (ix3 b j d) a + D3.offCoord (ix3 b j d) a = _
  rw [GatherDims.batchCoord_eq_zero _ _ _ List.not_mem_nil, Nat.add_zero]
  match a with
  | ⟨0, _⟩ =>
    have hs : D3.start (ix3 b j d) idx 0 = 0 := by
      unfold GatherDims.start; rw [dif_neg (by decide)]
    have ho : D3.offCoord (ix3 b j d) 0 = b.val := by
      unfold GatherDims.offCoord
      rw [dif_pos (by decide)]
      simp only [show List.idxOf (0 : Fin 3) D3.sKept = 0 from by decide]
      rfl
    show D3.start (ix3 b j d) idx 0 + D3.offCoord (ix3 b j d) 0 = b.val
    rw [hs, ho, Nat.zero_add]
  | ⟨1, _⟩ =>
    have ho : D3.offCoord (ix3 b j d) 1 = 0 := by
      unfold GatherDims.offCoord; rw [dif_neg (by decide)]
    have hsi : D3.siIdx (ix3 b j d) ⟨List.idxOf (1 : Fin 3) D3.startIndexMap,
        List.idxOf_lt_length_iff.2 (by decide)⟩ = ix2 j 0 := by
      funext c; refine Fin.ext ?_
      match c with
      | ⟨0, _⟩ => rfl
      | ⟨1, _⟩ => rfl
    have hs : D3.start (ix3 b j d) idx 1 = min (idx (ix2 j 0)).toInt.toNat 511 := by
      unfold GatherDims.start
      rw [dif_pos (by decide), hsi]
      rfl
    show D3.start (ix3 b j d) idx 1 + D3.offCoord (ix3 b j d) 1 = min (idx (ix2 j 0)).toInt.toNat 511
    rw [hs, ho, Nat.add_zero]
  | ⟨2, _⟩ =>
    have hs : D3.start (ix3 b j d) idx 2 = 0 := by
      unfold GatherDims.start; rw [dif_neg (by decide)]
    have ho : D3.offCoord (ix3 b j d) 2 = d.val := by
      unfold GatherDims.offCoord
      rw [dif_pos (by decide)]
      simp only [show List.idxOf (2 : Fin 3) D3.sKept = 1 from by decide]
      rfl
    show D3.start (ix3 b j d) idx 2 + D3.offCoord (ix3 b j d) 2 = d.val
    rw [hs, ho, Nat.zero_add]

/-- Gathering rows of the width table: entry (j, e) of the result is the table at column e and the row the j-th width
    word names, read signed and kept inside [0, 14]. -/
theorem gather_table_apply {α : Type} (x : S15x64.Idx → α) (idx : IVec S7575x1 32)
    (j : Fin 7575) (e : Fin 64) :
    Host.gather gather_S15x64_S7575x1_S7575x64_1_0_n_n_0_1_164 x idx (ix2 j e)
      = x (ix2 ⟨min (idx (ix2 j 0)).toInt.toNat 14, by omega⟩ e) := by
  unfold Host.gather
  congr 1
  funext a
  refine Fin.ext ?_
  show D2.start (ix2 j e) idx a + D2.batchCoord (ix2 j e) a + D2.offCoord (ix2 j e) a = _
  rw [GatherDims.batchCoord_eq_zero _ _ _ List.not_mem_nil, Nat.add_zero]
  match a with
  | ⟨0, _⟩ =>
    have ho : D2.offCoord (ix2 j e) 0 = 0 := by
      unfold GatherDims.offCoord; rw [dif_neg (by decide)]
    have hsi : D2.siIdx (ix2 j e) ⟨List.idxOf (0 : Fin 2) D2.startIndexMap,
        List.idxOf_lt_length_iff.2 (by decide)⟩ = ix2 j 0 := by
      funext c; refine Fin.ext ?_
      match c with
      | ⟨0, _⟩ => rfl
      | ⟨1, _⟩ => rfl
    have hs : D2.start (ix2 j e) idx 0 = min (idx (ix2 j 0)).toInt.toNat 14 := by
      unfold GatherDims.start
      rw [dif_pos (by decide), hsi]
      rfl
    show D2.start (ix2 j e) idx 0 + D2.offCoord (ix2 j e) 0 = min (idx (ix2 j 0)).toInt.toNat 14
    rw [hs, ho, Nat.add_zero]
  | ⟨1, _⟩ =>
    have hs : D2.start (ix2 j e) idx 1 = 0 := by
      unfold GatherDims.start; rw [dif_neg (by decide)]
    have ho : D2.offCoord (ix2 j e) 1 = e.val := by
      unfold GatherDims.offCoord
      rw [dif_pos (by decide)]
      simp only [show List.idxOf (1 : Fin 2) D2.sKept = 0 from by decide]
      rfl
    show D2.start (ix2 j e) idx 1 + D2.offCoord (ix2 j e) 1 = e.val
    rw [hs, ho, Nat.zero_add]

/-! ## The start words: a negative word counts from the end -/

theorem start_word (x6 : (⟨S7575, .i32⟩ : BufTy).Contents (Elt Ideal)) (j : Fin 7575) :
    val_main_v5 (F := Ideal) x6 (ix2 j 0)
      = Scalar.select (IntOp.cmpi .slt (x6 (ix1 j)) 0#32) (IntOp.addi (x6 (ix1 j)) 512#32) (x6 (ix1 j)) := by
  have hi : idx_main_v5 (ix2 j (0 : Fin 1)) = ix1 j := funext fun a => Fin.ext (by match a with | ⟨0, _⟩ => rfl)
  rw [val_main_v5_apply, hi, val_main_v4_apply, val_main_v1_apply, val_main_v3_apply, val_main_v0_apply, val_main_c_apply,
    val_main_v2_apply, val_main_c_0_apply]

theorem end_word (x7 : (⟨S7575, .i32⟩ : BufTy).Contents (Elt Ideal)) (j : Fin 7575) :
    val_main_v12 (F := Ideal) x7 (ix2 j 0)
      = Scalar.select (IntOp.cmpi .slt (x7 (ix1 j)) 0#32) (IntOp.addi (x7 (ix1 j)) 512#32) (x7 (ix1 j)) := by
  have hi : idx_main_v12 (ix2 j (0 : Fin 1)) = ix1 j := funext fun a => Fin.ext (by match a with | ⟨0, _⟩ => rfl)
  rw [val_main_v12_apply, hi, val_main_v11_apply, val_main_v8_apply, val_main_v10_apply, val_main_v7_apply, val_main_c_1_apply,
    val_main_v9_apply, val_main_c_2_apply]

theorem width_word (x6 x7 : (⟨S7575, .i32⟩ : BufTy).Contents (Elt Ideal)) (j : Fin 7575) :
    val_main_v20 (F := Ideal) x6 x7 (ix2 j 0)
      = Scalar.select (IntOp.cmpi .slt (IntOp.subi (x7 (ix1 j)) (x6 (ix1 j))) 0#32)
          (IntOp.addi (IntOp.subi (x7 (ix1 j)) (x6 (ix1 j))) 15#32) (IntOp.subi (x7 (ix1 j)) (x6 (ix1 j))) := by
  have hi : idx_main_v20 (ix2 j (0 : Fin 1)) = ix1 j := funext fun a => Fin.ext (by match a with | ⟨0, _⟩ => rfl)
  rw [val_main_v20_apply, hi, val_main_v19_apply, val_main_v16_apply, val_main_v18_apply, val_main_v14_apply, val_main_v15_apply,
    val_main_c_3_apply, val_main_v17_apply, val_main_c_4_apply]

/-- The three picked rows as the reference reads them. -/
theorem start_row (x0 : (⟨S8x512x1024, .f32⟩ : BufTy).Contents (Elt Ideal)) (x6 : (⟨S7575, .i32⟩ : BufTy).Contents (Elt Ideal))
    (b : Fin 8) (j : Fin 7575) (d : Fin 1024) :
    val_main_v6 (F := Ideal) x0 x6 (ix3 b j d) = x0 (ix3 b ⟨rowOf 512 (x6 (ix1 j)), rowOf_lt 512 (by decide) _⟩ d) := by
  unfold val_main_v6
  rw [gather_rows_apply]
  exact congrArg (fun p => x0 (ix3 b p d)) (Fin.ext (by
    show min (val_main_v5 (F := Ideal) x6 (ix2 j 0)).toInt.toNat 511 = rowOf 512 (x6 (ix1 j))
    rw [start_word]; rfl))

theorem end_row (x0 : (⟨S8x512x1024, .f32⟩ : BufTy).Contents (Elt Ideal)) (x7 : (⟨S7575, .i32⟩ : BufTy).Contents (Elt Ideal))
    (b : Fin 8) (j : Fin 7575) (d : Fin 1024) :
    val_main_v13 (F := Ideal) x0 x7 (ix3 b j d) = x0 (ix3 b ⟨rowOf 512 (x7 (ix1 j)), rowOf_lt 512 (by decide) _⟩ d) := by
  unfold val_main_v13
  rw [gather_rows_apply]
  exact congrArg (fun p => x0 (ix3 b p d)) (Fin.ext (by
    show min (val_main_v12 (F := Ideal) x7 (ix2 j 0)).toInt.toNat 511 = rowOf 512 (x7 (ix1 j))
    rw [end_word]; rfl))

theorem width_row (x1 : (⟨S15x64, .f32⟩ : BufTy).Contents (Elt Ideal)) (x6 x7 : (⟨S7575, .i32⟩ : BufTy).Contents (Elt Ideal))
    (b : Fin 8) (j : Fin 7575) (e : Fin 64) :
    val_main_v23 (F := Ideal) x1 x6 x7 (ix3 b j e)
      = x1 (ix2 ⟨rowOf 15 (IntOp.subi (x7 (ix1 j)) (x6 (ix1 j))), rowOf_lt 15 (by decide) _⟩ e) := by
  have h1 : idx_main_v22 (idx_main_v23 (ix3 b j e)) = ix2 j e :=
    funext fun a => Fin.ext (by match a with | ⟨0, _⟩ => rfl | ⟨1, _⟩ => rfl)
  rw [val_main_v23_apply, val_main_v22_apply, h1]
  unfold val_main_v21
  rw [gather_table_apply]
  exact congrArg (fun p => x1 (ix2 p e)) (Fin.ext (by
    show min (val_main_v20 (F := Ideal) x6 x7 (ix2 j 0)).toInt.toNat 14 = rowOf 15 (IntOp.subi (x7 (ix1 j)) (x6 (ix1 j)))
    rw [width_word]; rfl))

/-! ## The three rows side by side -/

/-- The concatenation at entry (b, j, d): the start row below 1024, the end row below 2048, the width row after. -/
theorem cat_value (x0 : (⟨S8x512x1024, .f32⟩ : BufTy).Contents (Elt Ideal)) (x1 : (⟨S15x64, .f32⟩ : BufTy).Contents (Elt Ideal))
    (x6 x7 : (⟨S7575, .i32⟩ : BufTy).Contents (Elt Ideal)) (b : Fin 8) (j : Fin 7575) (d : Fin 2112) :
    val_main_v24 (F := Ideal) x0 x1 x6 x7 (ix3 b j d) = catRow x0 x1 x6 x7 b j d := by
  have hd : d.val < 2112 := d.isLt
  unfold catRow val_main_v24
  split_ifs with h0 h1
  · refine Eq.trans (concatenate_apply_piece (2 : Fin 3) _ _ (ix3 b j d) 0 (by show (0 : Nat) < 3; decide) S8x7575x1024
      (val_main_v6 (F := Ideal) x0 x6) rfl rfl 0 rfl (ix3 b j ⟨d.val, h0⟩)
      (fun c hc => by match c with | ⟨0, _⟩ => rfl | ⟨1, _⟩ => rfl | ⟨2, _⟩ => exact absurd rfl hc)
      (by show 0 + d.val = d.val; omega)) ?_
    exact start_row x0 x6 b j ⟨d.val, h0⟩
  · refine Eq.trans (concatenate_apply_piece (2 : Fin 3) _ _ (ix3 b j d) 1 (by show (1 : Nat) < 3; decide) S8x7575x1024
      (val_main_v13 (F := Ideal) x0 x7) rfl rfl 1024 rfl (ix3 b j ⟨d.val - 1024, by omega⟩)
      (fun c hc => by match c with | ⟨0, _⟩ => rfl | ⟨1, _⟩ => rfl | ⟨2, _⟩ => exact absurd rfl hc)
      (by show 1024 + (d.val - 1024) = d.val; omega)) ?_
    exact end_row x0 x7 b j ⟨d.val - 1024, by omega⟩
  · refine Eq.trans (concatenate_apply_piece (2 : Fin 3) _ _ (ix3 b j d) 2 (by show (2 : Nat) < 3; decide) S8x7575x64
      (val_main_v23 (F := Ideal) x1 x6 x7) rfl rfl 2048 rfl (ix3 b j ⟨d.val - 2048, by omega⟩)
      (fun c hc => by match c with | ⟨0, _⟩ => rfl | ⟨1, _⟩ => rfl | ⟨2, _⟩ => exact absurd rfl hc)
      (by show 2048 + (d.val - 2048) = d.val; omega)) ?_
    exact width_row x1 x6 x7 b j ⟨d.val - 2048, by omega⟩

/-! ## The hidden row and the scores -/

/-- The positive part of the side-by-side row times the first matrix plus its bias. -/
theorem hidden_value (x0 : (⟨S8x512x1024, .f32⟩ : BufTy).Contents (Elt Ideal)) (x1 : (⟨S15x64, .f32⟩ : BufTy).Contents (Elt Ideal))
    (x2 : (⟨S2112x1024, .f32⟩ : BufTy).Contents (Elt Ideal)) (x3 : (⟨S1024, .f32⟩ : BufTy).Contents (Elt Ideal))
    (x6 x7 : (⟨S7575, .i32⟩ : BufTy).Contents (Elt Ideal)) (b : Fin 8) (j : Fin 7575) (c : Fin 1024) :
    val_main_v29 (F := Ideal) x0 x1 x2 x3 x6 x7 (ix3 b j c) = hiddenR x0 x1 x2 x3 x6 x7 b j c := by
  have hb : idx_main_v26 (idx_main_v27 (ix3 b j c)) = ix1 c :=
    funext fun a => Fin.ext (by match a with | ⟨0, _⟩ => rfl)
  have hl : ∀ k : Fin 2112, lidx_main_v25 (ix3 b j c) k = ix3 b j k := fun k =>
    funext fun a => Fin.ext (by match a with | ⟨0, _⟩ => rfl | ⟨1, _⟩ => rfl | ⟨2, _⟩ => rfl)
  have hr : ∀ k : Fin 2112, ridx_main_v25 (ix3 b j c) k = ix2 k c := fun k =>
    funext fun a => Fin.ext (by match a with | ⟨0, _⟩ => rfl | ⟨1, _⟩ => rfl)
  rw [val_main_v29_apply, val_main_v28_apply, val_main_v25_apply, val_main_v27_apply, val_main_v26_apply, hb,
    val_main_call0_v0_apply, val_main_call0_cst_apply]
  unfold hiddenR
  show max ((∑ k : Fin 2112, val_main_v24 (F := Ideal) x0 x1 x6 x7 (lidx_main_v25 (ix3 b j c) k) * x2 (ridx_main_v25 (ix3 b j c) k))
      + x3 (ix1 c)) (Ideal.ofBits .f32 0x00000000#32) = _
  rw [Ideal.ofBits_zero_f32]
  congr 2
  refine Finset.sum_congr rfl fun k _ => ?_
  rw [hl k, hr k, cat_value]

/-- The reference's last stage is the gather-first score array. -/
theorem ref_value (x0 : (⟨S8x512x1024, .f32⟩ : BufTy).Contents (Elt Ideal)) (x1 : (⟨S15x64, .f32⟩ : BufTy).Contents (Elt Ideal))
    (x2 : (⟨S2112x1024, .f32⟩ : BufTy).Contents (Elt Ideal)) (x3 : (⟨S1024, .f32⟩ : BufTy).Contents (Elt Ideal))
    (x4 : (⟨S1024x3, .f32⟩ : BufTy).Contents (Elt Ideal)) (x5 : (⟨S3, .f32⟩ : BufTy).Contents (Elt Ideal))
    (x6 x7 : (⟨S7575, .i32⟩ : BufTy).Contents (Elt Ideal)) :
    val_main_v33 (F := Ideal) x0 x1 x2 x3 x4 x5 x6 x7 = logitR x0 x1 x2 x3 x4 x5 x6 x7 := by
  funext i
  obtain ⟨b, j, l, rfl⟩ : ∃ b j l, i = ix3 b j l := ⟨i 0, i 1, i 2, eq_ix3 i⟩
  have hb : idx_main_v31 (idx_main_v32 (ix3 b j l)) = ix1 l :=
    funext fun a => Fin.ext (by match a with | ⟨0, _⟩ => rfl)
  have hl : ∀ k : Fin 1024, lidx_main_v30 (ix3 b j l) k = ix3 b j k := fun k =>
    funext fun a => Fin.ext (by match a with | ⟨0, _⟩ => rfl | ⟨1, _⟩ => rfl | ⟨2, _⟩ => rfl)
  have hr : ∀ k : Fin 1024, ridx_main_v30 (ix3 b j l) k = ix2 k l := fun k =>
    funext fun a => Fin.ext (by match a with | ⟨0, _⟩ => rfl | ⟨1, _⟩ => rfl)
  rw [val_main_v33_apply, val_main_v30_apply, val_main_v32_apply, val_main_v31_apply, hb]
  unfold logitR
  show (∑ k : Fin 1024, val_main_v29 (F := Ideal) x0 x1 x2 x3 x6 x7 (lidx_main_v30 (ix3 b j l) k) * x4 (ridx_main_v30 (ix3 b j l) k))
      + x5 (ix1 l) = _
  congr 1
  refine Finset.sum_congr rfl fun k _ => ?_
  rw [hl k, hr k, hidden_value]

end Cert.SpanScore.Ref

end
-- ==== Proof.PreDecode.lean ====
/- The precondition, read: every span's two positions lie inside the sequence and its width inside the width table. -/
import proofs.«429336_j21028159881265_3_alg».proof.Defs
import proofs.«429336_j21028159881265_3_alg».proof.Proof.Gen.Pre_finite_inputs
import proofs.«429336_j21028159881265_3_alg».proof.Proof.Spec
import Idealize.ShloMosaic.Lib.ReduceAll
import Idealize.ShloMosaic.Lib.ValueIdx
import Idealize.ShloMosaic.Lib.StableHlo.Predicate

set_option maxRecDepth 16384

noncomputable section

namespace Cert.SpanScore.Pre

open Cert.Pre_finite_inputs Cert.SpanScore
open Idealize.ShloMosaic Idealize.ShloMosaic.ValueIdx

variable [Cert.Pre_finite_inputs.Facts]

/-- Where the printed predicate is all ones, the two integer inputs are in range. -/
theorem inRange_of_pre (x0 : FVec Ideal S8x512x1024 .f32) (x1 : FVec Ideal S15x64 .f32) (x2 : FVec Ideal S2112x1024 .f32)
    (x3 : FVec Ideal S1024 .f32) (x4 : FVec Ideal S1024x3 .f32) (x5 : FVec Ideal S3 .f32) (x6 x7 : IVec S7575 32)
    (h : Cert.Pre_finite_inputs.fn (F := Ideal) x0 x1 x2 x3 x4 x5 x6 x7 = fun _ => 1#1) : InRange x6 x7 := by
  -- the predicate is a conjunction: the six finiteness tests, then the three range tests; keep the last three
  have e := congrFun h ix0
  dsimp only [Cert.Pre_finite_inputs.fn, fn_part1, fn_part2, fn_part3] at e
  simp only [andi, IntOp.andi_eq_one] at e
  obtain ⟨⟨⟨-, hs⟩, he⟩, hw⟩ := e
  haveI : Subsingleton S_.Idx := ⟨fun a b => funext fun d => d.elim0⟩
  intro j
  -- a conjunction over all spans that holds, holds at span j
  have hsj := Host.reduce_andi_all _ _ _ _ _ hs (ix1 j)
  have hej := Host.reduce_andi_all _ _ _ _ _ he (ix1 j)
  have hwj := Host.reduce_andi_all _ _ _ _ _ hw (ix1 j)
  -- at span j each test compares the word with a constant, signed
  have hs' : IntOp.andi (IntOp.cmpi .sge (x6 (ix1 j)) 0#32) (IntOp.cmpi .slt (x6 (ix1 j)) 512#32) = 1#1 := hsj
  have he' : IntOp.andi (IntOp.cmpi .sge (x7 (ix1 j)) 0#32) (IntOp.cmpi .slt (x7 (ix1 j)) 512#32) = 1#1 := hej
  have hw' : IntOp.andi (IntOp.cmpi .sge (IntOp.subi (x7 (ix1 j)) (x6 (ix1 j))) 0#32)
      (IntOp.cmpi .slt (IntOp.subi (x7 (ix1 j)) (x6 (ix1 j))) 15#32) = 1#1 := hwj
  rw [IntOp.andi_eq_one, IntOp.cmpi_sge, IntOp.cmpi_slt] at hs' he' hw'
  have z0 : (0#32 : BitVec 32).toInt = 0 := by decide
  have z512 : (512#32 : BitVec 32).toInt = 512 := by decide
  have z15 : (15#32 : BitVec 32).toInt = 15 := by decide
  rw [z0, z512] at hs' he'
  rw [z0, z15] at hw'
  exact ⟨hs', he', hw'⟩

end Cert.SpanScore.Pre

end
-- ==== Proof.Bridge.lean ====
/- The two spellings of the score agree on spans in range.

   In range, keeping a word inside [0, n - 1] changes nothing and neither does counting a negative word from the end, so
   both spellings pick row (the word) of their tables. An indicator sum against a table picks that row out: every other
   term is zero times an entry, which is zero on the extended reals whatever the entry. And a sum over the 2112 entries
   of the side-by-side row splits into its three stretches, 1024 + 1024 + 64, which are the three projected rows: sums
   on the extended reals may be regrouped and reordered freely. No entry needs to be finite. -/
import proofs.«429336_j21028159881265_3_alg».proof.Proof.Spec
import Idealize.ShloMosaic.PureOps.Ideal
import Idealize.ShloMosaic.Lib.ValueIdx
import Mathlib.Algebra.BigOperators.Fin
import Mathlib.Algebra.BigOperators.Intervals

noncomputable section

open scoped BigOperators

namespace Cert.SpanScore

open Idealize.ShloMosaic Idealize.ShloMosaic.ValueIdx

/-! ## Words in range -/

/-- A word that reads non-negative signed reads the same unsigned. -/
theorem toInt_eq_toNat_of_nonneg (w : BitVec 32) (h0 : 0 ≤ w.toInt) : w.toInt = (w.toNat : ℤ) := by
  have hlt : w.toNat < 2 ^ 32 := w.isLt
  have h := BitVec.toInt_eq_toNat_cond w
  split at h <;> omega

/-- Such a word below n, read signed, is below n read unsigned. -/
theorem toNat_lt_of_toInt (w : BitVec 32) (n : Nat) (h0 : 0 ≤ w.toInt) (h1 : w.toInt < (n : ℤ)) : w.toNat < n := by
  have := toInt_eq_toNat_of_nonneg w h0
  omega

/-- Keeping a word of [0, hi] inside [0, hi] changes nothing. -/
theorem clip_eq (hi w : BitVec 32) (h0 : 0 ≤ w.toInt) (h1 : w.toInt ≤ hi.toInt) : clip hi w = w := by
  unfold clip IntOp.minsi IntOp.maxsi
  have hz : w.slt 0#32 = false := by
    simp only [BitVec.slt, BitVec.toInt_zero, decide_eq_false_iff_not, not_lt]; exact h0
  rw [hz]
  have hh : hi.slt w = false := by
    simp only [BitVec.slt, decide_eq_false_iff_not, not_lt]; exact h1
  simp only [Bool.false_eq_true, if_false, hh]

/-- A non-negative word below n is its own row of a table of n rows. -/
theorem rowOf_eq (n : Nat) (w : BitVec 32) (h0 : 0 ≤ w.toInt) (h1 : w.toInt < (n : ℤ)) : rowOf n w = w.toNat := by
  have hnat := toInt_eq_toNat_of_nonneg w h0
  have hz : w.slt 0#32 = false := by
    simp only [BitVec.slt, BitVec.toInt_zero, decide_eq_false_iff_not, not_lt]; exact h0
  unfold rowOf Scalar.select IntOp.cmpi
  simp only [hz]
  rw [if_neg (by decide)]
  omega

/-- The indicator is one at the word's own position and zero elsewhere. -/
theorem hot_eq (w : BitVec 32) (k : Nat) : hot w k = if w = BitVec.ofNat 32 k then 1 else 0 := by
  unfold hot IntOp.cmpi
  by_cases h : w = BitVec.ofNat 32 k
  · simp [h]
  · have hb : (w == BitVec.ofNat 32 k) = false := by simp [h]
    simp [h, hb]

/-- An indicator sum against a table picks the word's row out. -/
theorem pick {n : Nat} (hn : n ≤ 2 ^ 32) (w : BitVec 32) (hw : w.toNat < n) (T : Fin n → EReal) :
    ∑ k : Fin n, hot w k.val * T k = T ⟨w.toNat, hw⟩ := by
  rw [Finset.sum_eq_single (⟨w.toNat, hw⟩ : Fin n)]
  · rw [hot_eq, if_pos (by simp), one_mul]
  · intro k _ hk
    rw [hot_eq, if_neg, zero_mul]
    intro h
    apply hk
    apply Fin.ext
    have hk' : k.val < 2 ^ 32 := lt_of_lt_of_le k.isLt hn
    have := congrArg BitVec.toNat h
    simp only [BitVec.toNat_ofNat] at this
    rw [Nat.mod_eq_of_lt hk'] at this
    exact this.symm
  · intro h; exact absurd (Finset.mem_univ _) h

/-! ## The side-by-side row in its three stretches -/

theorem sum_split3 (f : Fin 2112 → EReal) :
    ∑ d : Fin 2112, f d
      = ((∑ d : Fin 1024, f ⟨d.val, by have := d.isLt; omega⟩)
          + (∑ d : Fin 1024, f ⟨1024 + d.val, by have := d.isLt; omega⟩))
        + (∑ d : Fin 64, f ⟨2048 + d.val, by have := d.isLt; omega⟩) := by
  show ∑ d : Fin (1024 + 1024 + 64), f d = _
  rw [Fin.sum_univ_add, Fin.sum_univ_add]
  congr 1

/-- The reference's sum over the side-by-side row, stretch by stretch. -/
theorem cat_sum (X : SSeq.Idx → EReal) (We : SWe.Idx → EReal) (A : SW1.Idx → EReal) (S E : SSp.Idx → BitVec 32)
    (b : Fin 8) (j : Fin 7575) (c : Fin 1024) :
    ∑ d : Fin 2112, catRow X We S E b j d * A (ix2 d c)
      = ((∑ d : Fin 1024, X (ix3 b ⟨rowOf 512 (S (ix1 j)), rowOf_lt 512 (by decide) _⟩ d)
              * A (ix2 ⟨d.val, by have := d.isLt; omega⟩ c))
          + (∑ d : Fin 1024, X (ix3 b ⟨rowOf 512 (E (ix1 j)), rowOf_lt 512 (by decide) _⟩ d)
              * A (ix2 ⟨1024 + d.val, by have := d.isLt; omega⟩ c)))
        + (∑ d : Fin 64, We (ix2 ⟨rowOf 15 (IntOp.subi (E (ix1 j)) (S (ix1 j))), rowOf_lt 15 (by decide) _⟩ d)
              * A (ix2 ⟨2048 + d.val, by have := d.isLt; omega⟩ c)) := by
  rw [sum_split3 (fun d => catRow X We S E b j d * A (ix2 d c))]
  refine congrArg₂ (· + ·) (congrArg₂ (· + ·) ?_ ?_) ?_
  · refine Finset.sum_congr rfl (fun d _ => ?_)
    have hd : d.val < 1024 := d.isLt
    unfold catRow
    rw [dif_pos hd]
  · refine Finset.sum_congr rfl (fun d _ => ?_)
    have hd : d.val < 1024 := d.isLt
    unfold catRow
    rw [dif_neg (show ¬ (1024 + d.val < 1024) by omega), dif_pos (show 1024 + d.val < 2048 by omega)]
    congr 3
    apply Fin.ext
    simp
  · refine Finset.sum_congr rfl (fun d _ => ?_)
    have hd : d.val < 64 := d.isLt
    unfold catRow
    rw [dif_neg (show ¬ (2048 + d.val < 1024) by omega), dif_neg (show ¬ (2048 + d.val < 2048) by omega)]
    congr 3
    apply Fin.ext
    simp

/-- An entry of the first weight matrix depends on its row only through the row's number. -/
theorem A_congr (A : SW1.Idx → EReal) {a a' : Fin 2112} (h : a.val = a'.val) (c : Fin 1024) :
    A (ix2 a c) = A (ix2 a' c) := by rw [Fin.ext h]

/-! ## The hidden rows agree -/

theorem hidden_agree (X : SSeq.Idx → EReal) (We : SWe.Idx → EReal) (A : SW1.Idx → EReal) (b1 : SH.Idx → EReal)
    (S E : SSp.Idx → BitVec 32) (Sp Ep : SSpP.Idx → BitVec 32)
    (hS : ∀ j : Fin 7575, Sp (ix1 (⟨j.val, by have := j.isLt; omega⟩ : Fin 7680)) = S (ix1 j))
    (hE : ∀ j : Fin 7575, Ep (ix1 (⟨j.val, by have := j.isLt; omega⟩ : Fin 7680)) = E (ix1 j))
    (hr : InRange S E) (b : Fin 8) (j : Fin 7575) (c : Fin 1024) :
    hiddenK Sp Ep (proj X (blockA A 0 (by decide))) (proj X (blockA A 1024 (by decide))) (projW We (blockC A)) b1 b
        (⟨j.val, by have := j.isLt; omega⟩ : Fin 7680) c
      = hiddenR X We A b1 S E b j c := by
  obtain ⟨⟨hs0, hs1⟩, ⟨he0, he1⟩, hw0, hw1⟩ := hr j
  have h511 : (511#32 : BitVec 32).toInt = 511 := by decide
  have h14 : (14#32 : BitVec 32).toInt = 14 := by decide
  have hsn : (S (ix1 j)).toNat < 512 := by
    have := toInt_eq_toNat_of_nonneg _ hs0; omega
  have hen : (E (ix1 j)).toNat < 512 := by
    have := toInt_eq_toNat_of_nonneg _ he0; omega
  have hwn : (IntOp.subi (E (ix1 j)) (S (ix1 j))).toNat < 15 := by
    have := toInt_eq_toNat_of_nonneg _ hw0; omega
  unfold hiddenK hiddenR
  rw [hS j, hE j, cat_sum]
  rw [clip_eq 511#32 _ hs0 (by omega), clip_eq 511#32 _ he0 (by omega), clip_eq 14#32 _ hw0 (by omega)]
  rw [pick (n := 512) (by norm_num) _ hsn (fun k => proj X (blockA A 0 (by decide)) (ix3 b k c)),
    pick (n := 512) (by norm_num) _ hen (fun k => proj X (blockA A 1024 (by decide)) (ix3 b k c)),
    pick (n := 15) (by norm_num) _ hwn (fun k => projW We (blockC A) (ix2 k c))]
  have r1 : (⟨rowOf 512 (S (ix1 j)), rowOf_lt 512 (by decide) _⟩ : Fin 512) = ⟨(S (ix1 j)).toNat, hsn⟩ :=
    Fin.ext (rowOf_eq 512 _ hs0 (by omega))
  have r2 : (⟨rowOf 512 (E (ix1 j)), rowOf_lt 512 (by decide) _⟩ : Fin 512) = ⟨(E (ix1 j)).toNat, hen⟩ :=
    Fin.ext (rowOf_eq 512 _ he0 (by omega))
  have r3 : (⟨rowOf 15 (IntOp.subi (E (ix1 j)) (S (ix1 j))), rowOf_lt 15 (by decide) _⟩ : Fin 15)
      = ⟨(IntOp.subi (E (ix1 j)) (S (ix1 j))).toNat, hwn⟩ :=
    Fin.ext (rowOf_eq 15 _ hw0 (by omega))
  rw [r1, r2, r3]
  refine congrArg (fun t => max (t + b1 (ix1 c)) 0) ?_
  refine congrArg₂ (· + ·) (congrArg₂ (· + ·) ?_ ?_) ?_
  · exact Finset.sum_congr rfl (fun d _ =>
      congrArg (fun t => X (ix3 b ⟨(S (ix1 j)).toNat, hsn⟩ d) * t) (A_congr A (Nat.zero_add _) c))
  · rfl
  · rfl

/-! ## The scores agree -/

/-- The padded scores over the projected tables, at a span that is not padding, are the gather-first scores. -/
theorem scores_agree (X : SSeq.Idx → EReal) (We : SWe.Idx → EReal) (A : SW1.Idx → EReal) (b1 : SH.Idx → EReal)
    (C : SW2.Idx → EReal) (b2 : SL.Idx → EReal) (S E : SSp.Idx → BitVec 32) (Sp Ep : SSpP.Idx → BitVec 32)
    (hS : ∀ j : Fin 7575, Sp (ix1 (⟨j.val, by have := j.isLt; omega⟩ : Fin 7680)) = S (ix1 j))
    (hE : ∀ j : Fin 7575, Ep (ix1 (⟨j.val, by have := j.isLt; omega⟩ : Fin 7680)) = E (ix1 j))
    (hr : InRange S E) (b : Fin 8) (j : Fin 7575) (l : Fin 3) :
    logitK Sp Ep (proj X (blockA A 0 (by decide))) (proj X (blockA A 1024 (by decide))) (projW We (blockC A)) C b1 b2
        (ix3 b (⟨j.val, by have := j.isLt; omega⟩ : Fin 7680) l)
      = logitR X We A b1 C b2 S E (ix3 b j l) := by
  unfold logitK logitR
  exact congrArg₂ (· + ·)
    (Finset.sum_congr rfl (fun c _ =>
      congrArg₂ (· * ·) (hidden_agree X We A b1 S E Sp Ep hS hE hr b j c) rfl)) rfl

end Cert.SpanScore

end
-- ==== Proof.Claims.lean ====
/- The five claims.

   The two kernel programs run by their generated frames; the reference by its generated run. The idealization changes
   nothing that needs a statement. For the value: the kernel program's result is the padded score array of the second
   kernel with the padding spans cut off; that array is the project-first score of the arrays the second kernel finds,
   which are the padded span words, the two tables the first kernel left (the sequence times the two square blocks of the
   first weight matrix), the width table times the last block, and the remaining arguments; the reference's result is the
   gather-first score of the arguments; and on spans in range, which is what the precondition says, the two scores are
   one function. -/
import proofs.«429336_j21028159881265_3_alg».proof.Defs
import proofs.«429336_j21028159881265_3_alg».proof.Proof.Gen.Kernel
import proofs.«429336_j21028159881265_3_alg».proof.Proof.Gen.Kernel.Frame
import proofs.«429336_j21028159881265_3_alg».proof.Proof.Gen.KernelIdeal
import proofs.«429336_j21028159881265_3_alg».proof.Proof.Gen.KernelIdeal.Frame
import proofs.«429336_j21028159881265_3_alg».proof.Proof.Gen.ReferenceIdeal
import proofs.«429336_j21028159881265_3_alg».proof.Proof.Gen.ReferenceIdeal.Run
import proofs.«429336_j21028159881265_3_alg».proof.Proof.Gen.ReferenceIdeal.Read
import proofs.«429336_j21028159881265_3_alg».proof.Proof.Gen.Pre_finite_inputs
import proofs.«429336_j21028159881265_3_alg».proof.Proof.Spec
import proofs.«429336_j21028159881265_3_alg».proof.Proof.KRun
import proofs.«429336_j21028159881265_3_alg».proof.Proof.Region0
import proofs.«429336_j21028159881265_3_alg».proof.Proof.Region1
import proofs.«429336_j21028159881265_3_alg».proof.Proof.HostVals
import proofs.«429336_j21028159881265_3_alg».proof.Proof.RefValue
import proofs.«429336_j21028159881265_3_alg».proof.Proof.PreDecode
import proofs.«429336_j21028159881265_3_alg».proof.Proof.Bridge

set_option maxRecDepth 16384

noncomputable section

namespace Cert.Proof.Claims

open Idealize.ShloMosaic Idealize.ShloMosaic.TcCoe Idealize.SL.Sem Idealize.ShloMosaic.ValueIdx
open Cert.SpanScore

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

section KernelValue

open Cert.KernelIdeal Cert.KernelIdeal.Gen Cert.KernelIdeal.HostVals

variable (m : (ℓ : Loc nD τ sig) → Buf (Elt Ideal) ℓ) (ρ : Dev nD → PrngReg)

/-- The kernel program's result buffer, where the precondition holds, is the gather-first score of the arguments. -/
theorem kernel_result (hpre : Cert.Pre_KernelIdeal m) (c : Dev nD) :
    W8 m ρ c (Proc.devRef .tc main_v13)
      = logitR (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨b, j, l, rfl⟩ : ∃ (b : Fin 8) (j : Fin 7575) (l : Fin 3), i = ix3 b j l := ⟨i 0, i 1, i 2, eq_ix3 i⟩
  rw [result_apply m ρ c b j l, Cert.KernelIdeal.Region1.scores (V6 m ρ) c,
    entry1_tableS m ρ c, entry1_tableE m ρ c, entry1_tableW m ρ c, entry1_w2 m ρ c, entry1_b1 m ρ c, entry1_b2 m ρ c,
    Cert.KernelIdeal.Region0.startTable (V1 m ρ) c, Cert.KernelIdeal.Region0.endTable (V1 m ρ) c,
    entry0_seq m ρ c, entry0_blockS m ρ c, entry0_blockE m ρ c]
  exact scores_agree _ _ _ _ _ _ _ _ _ _ (fun j => entry1_starts m ρ c j) (fun j => entry1_ends m ρ c j)
    (Cert.SpanScore.Pre.inRange_of_pre _ _ _ _ _ _ _ _ (hpre c)) b j l

end KernelValue

/-- Both idealized programs, from memories that agree on the arguments, end with the same scores. -/
theorem algebraic : Cert.algebraic_KernelIdeal_ReferenceIdeal := by
  intro m ρ m' ρ' hpre hagree
  refine ⟨fun c => logitR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_result m ρ hpre c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v33_eq, Cert.SpanScore.Ref.ref_value, e0, e1, e2, e3, e4, e5, e6, e7]

end Cert.Proof.Claims

end
-- ==== Proof.lean ====
/- A span scorer (start row, end row and width row of every candidate span through a two-layer classifier) as two
   kernels that project before they gather, against the array program that gathers before it projects: the same scores
   on the extended reals wherever every span's positions and width index rows that exist. The argument is in
   Proof/Claims.lean and the modules it cites. -/
import proofs.«429336_j21028159881265_3_alg».proof.Defs
import proofs.«429336_j21028159881265_3_alg».proof.Proof.Gen.Kernel
import proofs.«429336_j21028159881265_3_alg».proof.Proof.Gen.KernelIdeal
import proofs.«429336_j21028159881265_3_alg».proof.Proof.Gen.ReferenceIdeal
import proofs.«429336_j21028159881265_3_alg».proof.Proof.Gen.Pre_finite_inputs
import proofs.«429336_j21028159881265_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
